-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S256x128 : Shape := ⟨2, ![256, 128]⟩
abbrev S256 : Shape := ⟨1, ![256]⟩
abbrev S2x800000 : Shape := ⟨2, ![2, 800000]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S256 .f32) (main_arg6 : FVec F S800000 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S800000 .f32 := Host.absf main_arg6
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x64 .f32) (main_arg1 : FVec F S50000x64 .f32) (main_arg2 : FVec F S50000x64 .f32) (main_arg3 : FVec F S256x128 .f32) (main_arg4 : FVec F S256 .f32) (main_arg5 : IVec S2x800000 32) (main_arg6 : FVec F S800000 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg6 main_v13 main_v16
-- ==== Kernel.lean ====
abbrev S50000x64 : Shape := ⟨2, ![50000, 64]⟩
abbrev S256x128 : Shape := ⟨2, ![256, 128]⟩
abbrev S256 : Shape := ⟨1, ![256]⟩
abbrev S2x800000 : Shape := ⟨2, ![2, 800000]⟩
abbrev S800000 : Shape := ⟨1, ![800000]⟩
abbrev S128x256 : Shape := ⟨2, ![128, 256]⟩
abbrev S64x256 : Shape := ⟨2, ![64, 256]⟩
abbrev S50000x256 : Shape := ⟨2, ![50000, 256]⟩
abbrev S5000x64 : Shape := ⟨2, ![5000, 64]⟩
abbrev S5000x256 : Shape := ⟨2, ![5000, 256]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S64 : Shape := ⟨1, ![64]⟩
abbrev S1x64 : Shape := ⟨2, ![1, 64]⟩

abbrev nBuf : Space → Nat
  | .hbm => 84
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S256x128, .f32⟩
  | .hbm, ⟨4, _⟩ => ⟨S256, .f32⟩
  | .hbm, ⟨5, _⟩ => ⟨S2x800000, .i32⟩
  | .hbm, ⟨6, _⟩ => ⟨S800000, .f32⟩
  | .hbm, ⟨7, _⟩ => ⟨S128x256, .f32⟩
  | .hbm, ⟨8, _⟩ => ⟨S64x256, .f32⟩
  | .hbm, ⟨9, _⟩ => ⟨S64x256, .f32⟩
  | .hbm, ⟨10, _⟩ => ⟨S50000x256, .f32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S50000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S850000x1, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x256, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S64, .f32⟩
  | .hbm, ⟨75, _⟩ => ⟨S1x64, .f32⟩
  | .hbm, ⟨76, _⟩ => ⟨S64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S64, .f32⟩
  | .hbm, ⟨81, _⟩ => ⟨S1x64, .f32⟩
  | .hbm, ⟨82, _⟩ => ⟨S50000x64, .f32⟩
  | .hbm, ⟨83, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x256, .f32⟩
  | .local _ .vmem, ⟨5, _⟩ => ⟨S64x256, .f32⟩
  | .local _ .vmem, ⟨6, _⟩ => ⟨S5000x256, .f32⟩
  | .local _ .vmem, ⟨7, _⟩ => ⟨S5000x256, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62_0 : Ref sig .tc := ⟨.hbm, 82, rfl⟩
abbrev main_v62_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  transposes_S256x128_S128x256_1_0 : S256x128.Transposes [1, 0] S128x256
  slices_S128x256_S64x256_0_0 : S128x256.Slices ![0, 0] S64x256
  slices_S128x256_S64x256_64_0 : S128x256.Slices ![64, 0] S64x256
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S5000x256_S5000x256_0_0 : ∀ a, (![0, 0] : Fin 2 → Nat) a + S5000x256.size a ≤ S5000x256.size a
  h_S5000x256 : 0 < S5000x256.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  slices_S256_S64_0 : S256.Slices ![0] S64
  shapeCasts_S64_S1x64 : S64.ShapeCasts S1x64
  slices_S256_S64_64 : S256.Slices ![64] S64
  slices_S256_S64_128 : S256.Slices ![128] S64
  slices_S256_S64_192 : S256.Slices ![192] S64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x256_S5000x256_1_0_0_1_n_n_wf : DotDims.WF S5000x64 S64x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S50000x64.size a
  hwx1_10 : ∀ i : grid1.Coords, EltTy.bits .f32 = 32 ∨ (Rect.block (s := S50000x64) S5000x64.size (cc1_transform_10 i) (hinb1_10 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v50) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg2) S5000x64.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v62_0) S5000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v62_1) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S256x128 : Shape := ⟨2, ![256, 128]⟩
abbrev S256 : Shape := ⟨1, ![256]⟩
abbrev S2x800000 : Shape := ⟨2, ![2, 800000]⟩
abbrev S800000 : Shape := ⟨1, ![800000]⟩
abbrev S50000x128 : Shape := ⟨2, ![50000, 128]⟩
abbrev S128x256 : Shape := ⟨2, ![128, 256]⟩
abbrev S50000x256 : Shape := ⟨2, ![50000, 256]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 106
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S256x128, .f32⟩
  | .hbm, ⟨4, _⟩ => ⟨S256, .f32⟩
  | .hbm, ⟨5, _⟩ => ⟨S2x800000, .i32⟩
  | .hbm, ⟨6, _⟩ => ⟨S800000, .f32⟩
  | .hbm, ⟨7, _⟩ => ⟨S50000x128, .f32⟩
  | .hbm, ⟨8, _⟩ => ⟨S128x256, .f32⟩
  | .hbm, ⟨9, _⟩ => ⟨S50000x256, .f32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S_, .f32⟩
  | .hbm, ⟨19, _⟩ => ⟨S50000, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x256, .f32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]

class Facts₀ : Prop where
  concatenates_S50000x64_S50000x64_S50000x128_d1 : Shape.Concatenates [S50000x64, S50000x64] S50000x128 1
  transposes_S256x128_S128x256_1_0 : S256x128.Transposes [1, 0] S128x256
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  bcast_S_S50000x64 : S_.BroadcastsInDim S50000x64 (![] : Fin 0 → Fin S50000x64.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Region0Value.lean ====
import proofs.«104125_j6794638262633_1_alg».proof.Proof.Gen.KernelIdeal.Frame
import proofs.«104125_j6794638262633_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

/-! # The linear layer's array

The first kernel cuts the 50000 rows into ten blocks of 5000. On block `t` it multiplies the rows of `x` by the
first 64 rows of the transposed weight and the rows of `h` by the last 64, and adds the two products. Entry
`(r, q)` of what it leaves is therefore `∑ k, x (r, k) · Wx (k, q) + ∑ k, h (r, k) · Wh (k, q)`, whatever block
row `r` falls in: the array after the ten write-backs is that one function of the arrays the kernel reads. -/

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

/-- Row `r` of `X` against column `q` of `Wx`, plus row `r` of `H` against column `q` of `Wh`. -/
def proj (X H : FVec Ideal S50000x64 .f32) (Wx Wh : FVec Ideal S64x256 .f32) : FVec Ideal S50000x256 .f32 :=
  fun i => (∑ k : Fin 64, X (ix2 (i 0) k) * Wx (ix2 k (i 1))) + ∑ k : Fin 64, H (ix2 (i 0) k) * Wh (ix2 k (i 1))

/-- The body's one stored value at an entry of the block: the two products into zero accumulators are plain sums
    over the 64 contracted positions, and rounding an operand to a narrower format changes nothing here. -/
theorem pay_apply (x0 x1 : FVec Ideal S5000x64 .f32) (x2 x3 : FVec Ideal S64x256 .f32) (p : Fin 5000) (q : Fin 256) :
    k0_pay1 (F := Ideal) x0 x1 x2 x3 (ix2 p q)
      = (∑ k : Fin 64, x0 (ix2 p k) * x2 (ix2 k q)) + ∑ k : Fin 64, x1 (ix2 p k) * x3 (ix2 k q) := by
  unfold k0_pay1
  rw [shapeCast_self, shapeCast_self]
  show FloatOps.addf (F := Ideal) (φ := .f32) _ _ = _
  rw [Ideal.addf_def]
  refine congrArg₂ (· + ·) ?_ ?_
  · exact Cert.PlainDot.matmul_zero_apply dot_S5000x64_S64x256_S5000x256_1_0_0_1_n_n rfl none _ _ (ix2 p q)
  · exact Cert.PlainDot.matmul_zero_apply dot_S5000x64_S64x256_S5000x256_1_0_0_1_n_n rfl none _ _ (ix2 p q)

theorem hz : (![0, 0] : Fin 2 → Nat) = fun _ => 0 := funext fun a => by fin_cases a <;> rfl

/-- The index maps over the ten grid points: the row windows and the output move together down the rows, and
    the weight windows stay put. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The four arrays the region reads, each at its literal type. -/
abbrev arrX (c : Dev nD) : FVec Ideal S50000x64 .f32 := V c main_arg0
abbrev arrH (c : Dev nD) : FVec Ideal S50000x64 .f32 := V c main_arg1
abbrev arrWx (c : Dev nD) : FVec Ideal S64x256 .f32 := V c main_v1
abbrev arrWh (c : Dev nD) : FVec Ideal S64x256 .f32 := V c main_v2

/-- What point `t` writes back is block `t` of `proj` of the arrays the region finds. -/
theorem flushed_eq (c : Dev nD) (t : Fin cfg0.N) :
    (dat0 V c).flushed 4 t
      = ((cfg0.win 4).blk t).view.read (Elt Ideal) (proj (arrX V c) (arrH V c) (arrWx V c) (arrWh V c)) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x256) hz]
  obtain ⟨e00, e01, e10, e11, e20, e21, e30, e31, e40, e41⟩ := idx_facts t
  refine funext fun (j : S5000x256.Idx) => ?_
  obtain ⟨p, q, rfl⟩ : ∃ (p : Fin 5000) (q : Fin 256), j = ix2 p q := ⟨j 0, j 1, eq_ix2 j⟩
  show k0_pay1 (F := Ideal) (iblk0 V c 0 t) (iblk0 V c 1 t) (iblk0 V c 2 t) (iblk0 V c 3 t) (ix2 p q)
    = proj (arrX V c) (arrH V c) (arrWx V c) (arrWh V c) (((cfg0.win 4).blk t).view.emb (ix2 p q))
  refine (pay_apply _ _ _ _ p q).trans ?_
  unfold proj
  have hj0 : p.val < 5000 := p.isLt
  have hj1 : q.val < 256 := q.isLt
  have rX : ∀ k : Fin 64, ((cfg0.win 0).blk t).view.emb (ix2 p k) = ix2 ((((cfg0.win 4).blk t).view.emb (ix2 p q)) 0) k := by
    intro k; funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 64 + 1 * k.val = k.val; omega
  have rH : ∀ k : Fin 64, ((cfg0.win 1).blk t).view.emb (ix2 p k) = ix2 ((((cfg0.win 4).blk t).view.emb (ix2 p q)) 0) k := by
    intro k; funext a; apply Fin.ext
    match a with
    | ⟨0, _⟩ => show win0_1.index t (0 : Fin 2) * 5000 + 1 * p.val = win0_4.index t (0 : Fin 2) * 5000 + 1 * p.val; omega
    | ⟨1, _⟩ => show win0_1.index t (1 : Fin 2) * 64 + 1 * k.val = k.val; omega
  have rWx : ∀ k : Fin 64, ((cfg0.win 2).blk t).view.emb (ix2 k q) = ix2 k ((((cfg0.win 4).blk t).view.emb (ix2 p q)) 1) := by
    intro k; funext a; apply Fin.ext
    match a with
    | ⟨0, _⟩ => show win0_2.index t (0 : Fin 2) * 64 + 1 * k.val = k.val; omega
    | ⟨1, _⟩ => show win0_2.index t (1 : Fin 2) * 256 + 1 * q.val = win0_4.index t (1 : Fin 2) * 256 + 1 * q.val; omega
  have rWh : ∀ k : Fin 64, ((cfg0.win 3).blk t).view.emb (ix2 k q) = ix2 k ((((cfg0.win 4).blk t).view.emb (ix2 p q)) 1) := by
    intro k; funext a; apply Fin.ext
    match a with
    | ⟨0, _⟩ => show win0_3.index t (0 : Fin 2) * 64 + 1 * k.val = k.val; omega
    | ⟨1, _⟩ => show win0_3.index t (1 : Fin 2) * 256 + 1 * q.val = win0_4.index t (1 : Fin 2) * 256 + 1 * q.val; omega
  refine congrArg₂ (· + ·) (Finset.sum_congr rfl fun k _ => ?_) (Finset.sum_congr rfl fun k _ => ?_)
  · show arrX V c (((cfg0.win 0).blk t).view.emb (ix2 p k)) * arrWx V c (((cfg0.win 2).blk t).view.emb (ix2 k q)) = _
    rw [rX k, rWx k]
    rfl
  · show arrH V c (((cfg0.win 1).blk t).view.emb (ix2 p k)) * arrWh V c (((cfg0.win 3).blk t).view.emb (ix2 k q)) = _
    rw [rH k, rWh k]
    rfl

/-- An index of the array is in point `t`'s block iff each coordinate is in the block's range on its axis. -/
theorem mem_blk (t : Fin cfg0.N) (i : S50000x256.Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_v3).slice (win0_4.rect t)).set ↔ _
  rw [View.set_slice_whole, Rect.mem_set_unit]
  exact Iff.rfl

/-- Every entry is in some point's block: row `r` is in block `r / 5000`. -/
theorem cover (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hN : grid0.N = 10 := N_0
  let t : Fin cfg0.N := ⟨(i 0).val / 5000, by show (i 0).val / 5000 < grid0.N; rw [hN]; omega⟩
  obtain ⟨-, -, -, -, -, -, -, -, e40, e41⟩ := idx_facts t
  have ht : t.val = (i 0).val / 5000 := rfl
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 256 ≤ (i 1).val ∧ (i 1).val < win0_4.index t (1 : Fin 2) * 256 + 256; omega

/-- The array after the region: `proj` of the arrays the region finds. -/
theorem final (c : Dev nD) :
    (dat0 V c).arrAt 4 cfg0.N = proj (arrX V c) (arrH V c) (arrWx V c) (arrWh V c) :=
  (dat0 V c).arrAt_eq_of_cover 4 _ (fun t _ => flushed_eq V c t) cover

end Cert.KernelIdeal.Linear

end
-- ==== Proof.Glue.lean ====
import proofs.«104125_j6794638262633_1_alg».proof.Proof.Gen.ReferenceIdeal.Read

noncomputable section

/-! # The graph aggregation as a function of the projected features

Both programs normalise the edge weights by the degrees, gather the projected features `xl` at each edge's source,
scale them, and add them up at each edge's target. The only thing that differs between the two programs on the way
is how `xl` itself was computed. So the aggregation is named here once as a function of `xl`, the edge list and the
edge weights; nothing in the certificate opens it. -/

namespace Cert.Glue

open Cert.ReferenceIdeal Cert.ReferenceIdeal.Gen Cert.ReferenceIdeal.Read Idealize.ShloMosaic

/-- The aggregated messages: the normalised weights times the rows of `xl` gathered at the sources, summed into
    the targets. -/
def aggOf (xl : FVec Ideal S50000x256 .f32) (x5 : (⟨S2x800000, .i32⟩ : BufTy).Contents (Elt Ideal))
    (x6 : FVec Ideal S800000 .f32) : FVec Ideal S50000x256 .f32 :=
  Host.scatterAdd (F := Ideal) scatter_S50000x256_S850000x1_S850000x256_1_0_0_1 (val_main_v46 (F := Ideal)) (val_main_v47 (F := Ideal) x5)
    (mulf (F := Ideal) (val_main_v44 (F := Ideal) x5 x6)
      (Host.gather gather_S50000x256_S850000x1_S850000x256_1_0_n_n_0_1_1256 xl (val_main_v42 (F := Ideal) x5)))

set_option maxRecDepth 16384 in
/-- The reference's aggregation is that function of its own projection. -/
theorem agg_ref (x0 x1 : (⟨S50000x64, .f32⟩ : BufTy).Contents (Elt Ideal)) (x3 : (⟨S256x128, .f32⟩ : BufTy).Contents (Elt Ideal))
    (x5 : (⟨S2x800000, .i32⟩ : BufTy).Contents (Elt Ideal)) (x6 : (⟨S800000, .f32⟩ : BufTy).Contents (Elt Ideal)) :
    val_main_v48 (F := Ideal) x0 x1 x3 x5 x6 = aggOf (val_main_v2 (F := Ideal) x0 x1 x3) x5 x6 := rfl

end Cert.Glue

end
-- ==== Proof.Region1Value.lean ====
import proofs.«104125_j6794638262633_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

/-! # The gating kernel's two arrays

The second kernel again works on ten blocks of 5000 rows. On each block it adds a bias row to each of four
pre-activations, squashes three of them with the logistic function and one with the hyperbolic tangent, and
forms the new cell state `f · c + i · g` and the new hidden state `o · tanh (f · c + i · g)`. Every entry of
the two results depends only on the entries at the same place of the row arrays and on the bias rows' entry in
the same column, so after the ten write-backs each result array is one function, entry by entry, of the nine
arrays the kernel reads. -/

namespace Cert.KernelIdeal.Gating

open Cert.KernelIdeal Cert.KernelIdeal.Gen Idealize.ShloMosaic Idealize.ShloMosaic.TcCoe Idealize.SL.Sem
open Idealize.ShloMosaic.ValueIdx
open Idealize.ShloMosaic.Pipeline (Dat)

/-- The new cell state at an entry: `σ (af + bf) · c + σ (ai + bi) · tanh (ag + bg)`, a bias read in the entry's column. -/
def cellNext (ai af ag : FVec Ideal S50000x64 .f32) (bi bf bg : FVec Ideal S1x64 .f32) (cp : FVec Ideal S50000x64 .f32) :
    FVec Ideal S50000x64 .f32 := fun i =>
  FloatOps.addf
    (FloatOps.mulf (FloatOps.logistic (FloatOps.addf (af i) (bf (ix2 (0 : Fin 1) (i 1))))) (cp i))
    (FloatOps.mulf (FloatOps.logistic (FloatOps.addf (ai i) (bi (ix2 (0 : Fin 1) (i 1)))))
      (FloatOps.tanh (FloatOps.addf (ag i) (bg (ix2 (0 : Fin 1) (i 1))))))

/-- The new hidden state at an entry: `σ (ao + bo) · tanh` of the new cell state. -/
def hiddenNext (ai af ao ag : FVec Ideal S50000x64 .f32) (bi bf bo bg : FVec Ideal S1x64 .f32) (cp : FVec Ideal S50000x64 .f32) :
    FVec Ideal S50000x64 .f32 := fun i =>
  FloatOps.mulf (FloatOps.logistic (FloatOps.addf (ao i) (bo (ix2 (0 : Fin 1) (i 1)))))
    (FloatOps.tanh (cellNext ai af ag bi bf bg cp i))

/-- The stored cell state at an entry of a block, from the block's loads: the casts are to the same shape, and a
    bias row laid under every row is read in the entry's column. -/
theorem payC_apply (v0 : FVec Ideal S5000x64 .f32) (v2 : FVec Ideal S1x64 .f32) (v7 : FVec Ideal S5000x64 .f32) (v9 : FVec Ideal S1x64 .f32)
    (v21 : FVec Ideal S5000x64 .f32) (v23 : FVec Ideal S1x64 .f32) (v28 : FVec Ideal S5000x64 .f32) (p : Fin 5000) (q : Fin 64) :
    k1_pay1 (F := Ideal) v0 v2 v7 v9 v21 v23 v28 (ix2 p q)
      = FloatOps.addf
          (FloatOps.mulf (FloatOps.logistic (FloatOps.addf (v7 (ix2 p q)) (v9 (ix2 (0 : Fin 1) q)))) (v28 (ix2 p q)))
          (FloatOps.mulf (FloatOps.logistic (FloatOps.addf (v0 (ix2 p q)) (v2 (ix2 (0 : Fin 1) q))))
            (FloatOps.tanh (FloatOps.addf (v21 (ix2 p q)) (v23 (ix2 (0 : Fin 1) q))))) := by
  unfold k1_pay1
  simp only [shapeCast_self]
  show FloatOps.addf
      (FloatOps.mulf (FloatOps.logistic (FloatOps.addf (v7 (ix2 p q)) (broadcastTo S5000x64 v9 broadcasts_S1x64_S5000x64 (ix2 p q)))) (v28 (ix2 p q)))
      (FloatOps.mulf (FloatOps.logistic (FloatOps.addf (v0 (ix2 p q)) (broadcastTo S5000x64 v2 broadcasts_S1x64_S5000x64 (ix2 p q))))
        (FloatOps.tanh (FloatOps.addf (v21 (ix2 p q)) (broadcastTo S5000x64 v23 broadcasts_S1x64_S5000x64 (ix2 p q))))) = _
  rw [broadcastTo_1b_ab_apply, broadcastTo_1b_ab_apply, broadcastTo_1b_ab_apply]

/-- The stored hidden state at an entry of a block. -/
theorem payH_apply (v0 : FVec Ideal S5000x64 .f32) (v2 : FVec Ideal S1x64 .f32) (v7 : FVec Ideal S5000x64 .f32) (v9 : FVec Ideal S1x64 .f32)
    (v14 : FVec Ideal S5000x64 .f32) (v16 : FVec Ideal S1x64 .f32)
    (v21 : FVec Ideal S5000x64 .f32) (v23 : FVec Ideal S1x64 .f32) (v28 : FVec Ideal S5000x64 .f32) (p : Fin 5000) (q : Fin 64) :
    k1_pay2 (F := Ideal) v0 v2 v7 v9 v14 v16 v21 v23 v28 (ix2 p q)
      = FloatOps.mulf (FloatOps.logistic (FloatOps.addf (v14 (ix2 p q)) (v16 (ix2 (0 : Fin 1) q))))
          (FloatOps.tanh (FloatOps.addf
            (FloatOps.mulf (FloatOps.logistic (FloatOps.addf (v7 (ix2 p q)) (v9 (ix2 (0 : Fin 1) q)))) (v28 (ix2 p q)))
            (FloatOps.mulf (FloatOps.logistic (FloatOps.addf (v0 (ix2 p q)) (v2 (ix2 (0 : Fin 1) q))))
              (FloatOps.tanh (FloatOps.addf (v21 (ix2 p q)) (v23 (ix2 (0 : Fin 1) q))))))) := by
  unfold k1_pay2
  simp only [shapeCast_self]
  show FloatOps.mulf (FloatOps.logistic (FloatOps.addf (v14 (ix2 p q)) (broadcastTo S5000x64 v16 broadcasts_S1x64_S5000x64 (ix2 p q))))
      (FloatOps.tanh (k1_pay1 (F := Ideal) v0 v2 v7 v9 v21 v23 v28 (ix2 p q))) = _
  rw [broadcastTo_1b_ab_apply, payC_apply]

theorem hz : (![0, 0] : Fin 2 → Nat) = fun _ => 0 := funext fun a => by fin_cases a <;> rfl

/-- The index maps over the ten grid points: the row windows and both outputs move together down the rows, and
    the bias windows stay put. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_8.index t (0 : Fin 2) = t.val
    ∧ win1_8.index t (1 : Fin 2) = 0
    ∧ win1_9.index t (0 : Fin 2) = t.val
    ∧ win1_9.index t (1 : Fin 2) = 0
    ∧ win1_10.index t (0 : Fin 2) = t.val
    ∧ win1_10.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

variable (V : (c : Dev nD) → (b : Ref sig .tc) → Buf (Elt Ideal) ((c : Thread nD τ).loc b))

/-- The nine arrays the region reads, each at its literal type. -/
abbrev aI (c : Dev nD) : FVec Ideal S50000x64 .f32 := V c main_v50
abbrev aF (c : Dev nD) : FVec Ideal S50000x64 .f32 := V c main_v51
abbrev aO (c : Dev nD) : FVec Ideal S50000x64 .f32 := V c main_v52
abbrev aG (c : Dev nD) : FVec Ideal S50000x64 .f32 := V c main_v53
abbrev bI (c : Dev nD) : FVec Ideal S1x64 .f32 := V c main_v55
abbrev bF (c : Dev nD) : FVec Ideal S1x64 .f32 := V c main_v57
abbrev bO (c : Dev nD) : FVec Ideal S1x64 .f32 := V c main_v59
abbrev bG (c : Dev nD) : FVec Ideal S1x64 .f32 := V c main_v61
abbrev cP (c : Dev nD) : FVec Ideal S50000x64 .f32 := V c main_arg2

set_option maxHeartbeats 4000000 in
/-- What point `t` writes back to the hidden state's array is block `t` of `hiddenNext` of the arrays the region finds. -/
theorem flushedH_eq (c : Dev nD) (t : Fin cfg1.N) :
    (dat1 V c).flushed 9 t = ((cfg1.win 9).blk t).view.read (Elt Ideal)
      (hiddenNext (aI V c) (aF V c) (aO V c) (aG V c) (bI V c) (bF V c) (bO V c) (bG V c) (cP V c)) := by
  show (cfg1.win 9).cut (grid1.coords t) ((dat1 V c).after 9 t) = _
  rw [after1_9]
  unfold out1_9
  rw [View.canon_unit_zero hz]
  simp only [View.ld_unit_zero (S := S5000x64) hz, View.ld_unit_zero (S := S1x64) hz]
  obtain ⟨e0_0, e0_1, e1_0, e1_1, e2_0, e2_1, e3_0, e3_1, e8_0, e8_1, e9_0, e9_1, e10_0, e10_1, e4_0, e4_1, e5_0, e5_1, e6_0, e6_1, e7_0, e7_1⟩ := idx_facts t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hq : q.val < 64 := q.isLt
  have h0 : ((cfg1.win 0).blk t).view.emb (ix2 p q) = ((cfg1.win 9).blk t).view.emb (ix2 p q) := by
    funext a; apply Fin.ext
    match a with
    | ⟨0, _⟩ => show win1_0.index t (0 : Fin 2) * 5000 + 1 * p.val = win1_9.index t (0 : Fin 2) * 5000 + 1 * p.val; omega
    | ⟨1, _⟩ => show win1_0.index t (1 : Fin 2) * 64 + 1 * q.val = win1_9.index t (1 : Fin 2) * 64 + 1 * q.val; omega
  have h1 : ((cfg1.win 1).blk t).view.emb (ix2 p q) = ((cfg1.win 9).blk t).view.emb (ix2 p q) := by
    funext a; apply Fin.ext
    match a with
    | ⟨0, _⟩ => show win1_1.index t (0 : Fin 2) * 5000 + 1 * p.val = win1_9.index t (0 : Fin 2) * 5000 + 1 * p.val; omega
    | ⟨1, _⟩ => show win1_1.index t (1 : Fin 2) * 64 + 1 * q.val = win1_9.index t (1 : Fin 2) * 64 + 1 * q.val; omega
  have h2 : ((cfg1.win 2).blk t).view.emb (ix2 p q) = ((cfg1.win 9).blk t).view.emb (ix2 p q) := by
    funext a; apply Fin.ext
    match a with
    | ⟨0, _⟩ => show win1_2.index t (0 : Fin 2) * 5000 + 1 * p.val = win1_9.index t (0 : Fin 2) * 5000 + 1 * p.val; omega
    | ⟨1, _⟩ => show win1_2.index t (1 : Fin 2) * 64 + 1 * q.val = win1_9.index t (1 : Fin 2) * 64 + 1 * q.val; omega
  have h3 : ((cfg1.win 3).blk t).view.emb (ix2 p q) = ((cfg1.win 9).blk t).view.emb (ix2 p q) := by
    funext a; apply Fin.ext
    match a with
    | ⟨0, _⟩ => show win1_3.index t (0 : Fin 2) * 5000 + 1 * p.val = win1_9.index t (0 : Fin 2) * 5000 + 1 * p.val; omega
    | ⟨1, _⟩ => show win1_3.index t (1 : Fin 2) * 64 + 1 * q.val = win1_9.index t (1 : Fin 2) * 64 + 1 * q.val; omega
  have h8 : ((cfg1.win 8).blk t).view.emb (ix2 p q) = ((cfg1.win 9).blk t).view.emb (ix2 p q) := by
    funext a; apply Fin.ext
    match a with
    | ⟨0, _⟩ => show win1_8.index t (0 : Fin 2) * 5000 + 1 * p.val = win1_9.index t (0 : Fin 2) * 5000 + 1 * p.val; omega
    | ⟨1, _⟩ => show win1_8.index t (1 : Fin 2) * 64 + 1 * q.val = win1_9.index t (1 : Fin 2) * 64 + 1 * q.val; omega
  have h4 : ((cfg1.win 4).blk t).view.emb (ix2 (0 : Fin 1) q) = ix2 (0 : Fin 1) ((((cfg1.win 9).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 64 + 1 * q.val = win1_9.index t (1 : Fin 2) * 64 + 1 * q.val; omega
  have h5 : ((cfg1.win 5).blk t).view.emb (ix2 (0 : Fin 1) q) = ix2 (0 : Fin 1) ((((cfg1.win 9).blk t).view.emb (ix2 p q)) 1) := by
    funext a; apply Fin.ext
    match a with
    | ⟨0, _⟩ => show win1_5.index t (0 : Fin 2) * 1 + 1 * 0 = 0; omega
    | ⟨1, _⟩ => show win1_5.index t (1 : Fin 2) * 64 + 1 * q.val = win1_9.index t (1 : Fin 2) * 64 + 1 * q.val; omega
  have h6 : ((cfg1.win 6).blk t).view.emb (ix2 (0 : Fin 1) q) = ix2 (0 : Fin 1) ((((cfg1.win 9).blk t).view.emb (ix2 p q)) 1) := by
    funext a; apply Fin.ext
    match a with
    | ⟨0, _⟩ => show win1_6.index t (0 : Fin 2) * 1 + 1 * 0 = 0; omega
    | ⟨1, _⟩ => show win1_6.index t (1 : Fin 2) * 64 + 1 * q.val = win1_9.index t (1 : Fin 2) * 64 + 1 * q.val; omega
  have h7 : ((cfg1.win 7).blk t).view.emb (ix2 (0 : Fin 1) q) = ix2 (0 : Fin 1) ((((cfg1.win 9).blk t).view.emb (ix2 p q)) 1) := by
    funext a; apply Fin.ext
    match a with
    | ⟨0, _⟩ => show win1_7.index t (0 : Fin 2) * 1 + 1 * 0 = 0; omega
    | ⟨1, _⟩ => show win1_7.index t (1 : Fin 2) * 64 + 1 * q.val = win1_9.index t (1 : Fin 2) * 64 + 1 * q.val; omega
  refine (payH_apply _ _ _ _ _ _ _ _ _ p q).trans ?_
  show FloatOps.mulf (FloatOps.logistic (FloatOps.addf (aO V c (((cfg1.win 2).blk t).view.emb (ix2 p q))) (bO V c (((cfg1.win 6).blk t).view.emb (ix2 (0 : Fin 1) q)))))
      (FloatOps.tanh (FloatOps.addf
      (FloatOps.mulf (FloatOps.logistic (FloatOps.addf (aF V c (((cfg1.win 1).blk t).view.emb (ix2 p q))) (bF V c (((cfg1.win 5).blk t).view.emb (ix2 (0 : Fin 1) q))))) (cP V c (((cfg1.win 8).blk t).view.emb (ix2 p q))))
      (FloatOps.mulf (FloatOps.logistic (FloatOps.addf (aI V c (((cfg1.win 0).blk t).view.emb (ix2 p q))) (bI V c (((cfg1.win 4).blk t).view.emb (ix2 (0 : Fin 1) q)))))
        (FloatOps.tanh (FloatOps.addf (aG V c (((cfg1.win 3).blk t).view.emb (ix2 p q))) (bG V c (((cfg1.win 7).blk t).view.emb (ix2 (0 : Fin 1) q)))))))) = _
  rw [congrArg (aI V c) h0, congrArg (aF V c) h1, congrArg (aO V c) h2, congrArg (aG V c) h3, congrArg (cP V c) h8,
    congrArg (bI V c) h4, congrArg (bF V c) h5, congrArg (bO V c) h6, congrArg (bG V c) h7]
  rfl

set_option maxHeartbeats 4000000 in
/-- What point `t` writes back to the cell state's array is block `t` of `cellNext` of the arrays the region finds. -/
theorem flushedC_eq (c : Dev nD) (t : Fin cfg1.N) :
    (dat1 V c).flushed 10 t = ((cfg1.win 10).blk t).view.read (Elt Ideal)
      (cellNext (aI V c) (aF V c) (aG V c) (bI V c) (bF V c) (bG V c) (cP V c)) := by
  show (cfg1.win 10).cut (grid1.coords t) ((dat1 V c).after 10 t) = _
  rw [after1_10]
  unfold out1_10
  rw [View.canon_unit_zero hz]
  simp only [View.ld_unit_zero (S := S5000x64) hz, View.ld_unit_zero (S := S1x64) hz]
  obtain ⟨e0_0, e0_1, e1_0, e1_1, e2_0, e2_1, e3_0, e3_1, e8_0, e8_1, e9_0, e9_1, e10_0, e10_1, e4_0, e4_1, e5_0, e5_1, e6_0, e6_1, e7_0, e7_1⟩ := idx_facts t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hq : q.val < 64 := q.isLt
  have h0 : ((cfg1.win 0).blk t).view.emb (ix2 p q) = ((cfg1.win 10).blk t).view.emb (ix2 p q) := by
    funext a; apply Fin.ext
    match a with
    | ⟨0, _⟩ => show win1_0.index t (0 : Fin 2) * 5000 + 1 * p.val = win1_10.index t (0 : Fin 2) * 5000 + 1 * p.val; omega
    | ⟨1, _⟩ => show win1_0.index t (1 : Fin 2) * 64 + 1 * q.val = win1_10.index t (1 : Fin 2) * 64 + 1 * q.val; omega
  have h1 : ((cfg1.win 1).blk t).view.emb (ix2 p q) = ((cfg1.win 10).blk t).view.emb (ix2 p q) := by
    funext a; apply Fin.ext
    match a with
    | ⟨0, _⟩ => show win1_1.index t (0 : Fin 2) * 5000 + 1 * p.val = win1_10.index t (0 : Fin 2) * 5000 + 1 * p.val; omega
    | ⟨1, _⟩ => show win1_1.index t (1 : Fin 2) * 64 + 1 * q.val = win1_10.index t (1 : Fin 2) * 64 + 1 * q.val; omega
  have h2 : ((cfg1.win 2).blk t).view.emb (ix2 p q) = ((cfg1.win 10).blk t).view.emb (ix2 p q) := by
    funext a; apply Fin.ext
    match a with
    | ⟨0, _⟩ => show win1_2.index t (0 : Fin 2) * 5000 + 1 * p.val = win1_10.index t (0 : Fin 2) * 5000 + 1 * p.val; omega
    | ⟨1, _⟩ => show win1_2.index t (1 : Fin 2) * 64 + 1 * q.val = win1_10.index t (1 : Fin 2) * 64 + 1 * q.val; omega
  have h3 : ((cfg1.win 3).blk t).view.emb (ix2 p q) = ((cfg1.win 10).blk t).view.emb (ix2 p q) := by
    funext a; apply Fin.ext
    match a with
    | ⟨0, _⟩ => show win1_3.index t (0 : Fin 2) * 5000 + 1 * p.val = win1_10.index t (0 : Fin 2) * 5000 + 1 * p.val; omega
    | ⟨1, _⟩ => show win1_3.index t (1 : Fin 2) * 64 + 1 * q.val = win1_10.index t (1 : Fin 2) * 64 + 1 * q.val; omega
  have h8 : ((cfg1.win 8).blk t).view.emb (ix2 p q) = ((cfg1.win 10).blk t).view.emb (ix2 p q) := by
    funext a; apply Fin.ext
    match a with
    | ⟨0, _⟩ => show win1_8.index t (0 : Fin 2) * 5000 + 1 * p.val = win1_10.index t (0 : Fin 2) * 5000 + 1 * p.val; omega
    | ⟨1, _⟩ => show win1_8.index t (1 : Fin 2) * 64 + 1 * q.val = win1_10.index t (1 : Fin 2) * 64 + 1 * q.val; omega
  have h4 : ((cfg1.win 4).blk t).view.emb (ix2 (0 : Fin 1) q) = ix2 (0 : Fin 1) ((((cfg1.win 10).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 64 + 1 * q.val = win1_10.index t (1 : Fin 2) * 64 + 1 * q.val; omega
  have h5 : ((cfg1.win 5).blk t).view.emb (ix2 (0 : Fin 1) q) = ix2 (0 : Fin 1) ((((cfg1.win 10).blk t).view.emb (ix2 p q)) 1) := by
    funext a; apply Fin.ext
    match a with
    | ⟨0, _⟩ => show win1_5.index t (0 : Fin 2) * 1 + 1 * 0 = 0; omega
    | ⟨1, _⟩ => show win1_5.index t (1 : Fin 2) * 64 + 1 * q.val = win1_10.index t (1 : Fin 2) * 64 + 1 * q.val; omega
  have h6 : ((cfg1.win 6).blk t).view.emb (ix2 (0 : Fin 1) q) = ix2 (0 : Fin 1) ((((cfg1.win 10).blk t).view.emb (ix2 p q)) 1) := by
    funext a; apply Fin.ext
    match a with
    | ⟨0, _⟩ => show win1_6.index t (0 : Fin 2) * 1 + 1 * 0 = 0; omega
    | ⟨1, _⟩ => show win1_6.index t (1 : Fin 2) * 64 + 1 * q.val = win1_10.index t (1 : Fin 2) * 64 + 1 * q.val; omega
  have h7 : ((cfg1.win 7).blk t).view.emb (ix2 (0 : Fin 1) q) = ix2 (0 : Fin 1) ((((cfg1.win 10).blk t).view.emb (ix2 p q)) 1) := by
    funext a; apply Fin.ext
    match a with
    | ⟨0, _⟩ => show win1_7.index t (0 : Fin 2) * 1 + 1 * 0 = 0; omega
    | ⟨1, _⟩ => show win1_7.index t (1 : Fin 2) * 64 + 1 * q.val = win1_10.index t (1 : Fin 2) * 64 + 1 * q.val; omega
  refine (payC_apply _ _ _ _ _ _ _ p q).trans ?_
  show FloatOps.addf
      (FloatOps.mulf (FloatOps.logistic (FloatOps.addf (aF V c (((cfg1.win 1).blk t).view.emb (ix2 p q))) (bF V c (((cfg1.win 5).blk t).view.emb (ix2 (0 : Fin 1) q))))) (cP V c (((cfg1.win 8).blk t).view.emb (ix2 p q))))
      (FloatOps.mulf (FloatOps.logistic (FloatOps.addf (aI V c (((cfg1.win 0).blk t).view.emb (ix2 p q))) (bI V c (((cfg1.win 4).blk t).view.emb (ix2 (0 : Fin 1) q)))))
        (FloatOps.tanh (FloatOps.addf (aG V c (((cfg1.win 3).blk t).view.emb (ix2 p q))) (bG V c (((cfg1.win 7).blk t).view.emb (ix2 (0 : Fin 1) q)))))) = _
  rw [congrArg (aI V c) h0, congrArg (aF V c) h1, congrArg (aG V c) h3, congrArg (cP V c) h8,
    congrArg (bI V c) h4, congrArg (bF V c) h5, congrArg (bG V c) h7]
  rfl

/-- An index of the array is in point `t`'s block iff each coordinate is in the block's range on its axis. -/
theorem mem_blk9 (t : Fin cfg1.N) (i : S50000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v62_0).slice (win1_9.rect t)).set ↔ _
  rw [View.set_slice_whole, Rect.mem_set_unit]
  exact Iff.rfl

/-- Every entry is in some point's block: row `r` is in block `r / 5000`. -/
theorem cover9 (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; rw [hN]; omega⟩
  obtain ⟨e0_0, e0_1, e1_0, e1_1, e2_0, e2_1, e3_0, e3_1, e8_0, e8_1, e9_0, e9_1, e10_0, e10_1, e4_0, e4_1, e5_0, e5_1, e6_0, e6_1, e7_0, e7_1⟩ := idx_facts t
  have ht : t.val = (i 0).val / 5000 := rfl
  refine ⟨t, flush1_9 t, ?_⟩
  rw [mem_blk9]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- An index of the array is in point `t`'s block iff each coordinate is in the block's range on its axis. -/
theorem mem_blk10 (t : Fin cfg1.N) (i : S50000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v62_1).slice (win1_10.rect t)).set ↔ _
  rw [View.set_slice_whole, Rect.mem_set_unit]
  exact Iff.rfl

/-- Every entry is in some point's block: row `r` is in block `r / 5000`. -/
theorem cover10 (i : S50000x64.Idx) :
    ∃ t : Fin cfg1.N, (cfg1.win 10).flush t = true ∧ i ∈ ((cfg1.win 10).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; rw [hN]; omega⟩
  obtain ⟨e0_0, e0_1, e1_0, e1_1, e2_0, e2_1, e3_0, e3_1, e8_0, e8_1, e9_0, e9_1, e10_0, e10_1, e4_0, e4_1, e5_0, e5_1, e6_0, e6_1, e7_0, e7_1⟩ := idx_facts t
  have ht : t.val = (i 0).val / 5000 := rfl
  refine ⟨t, flush1_10 t, ?_⟩
  rw [mem_blk10]
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 64 ≤ (i 1).val ∧ (i 1).val < win1_10.index t (1 : Fin 2) * 64 + 64; omega

/-- The hidden state's array after the region. -/
theorem finalH (c : Dev nD) :
    (dat1 V c).arrAt 9 cfg1.N = hiddenNext (aI V c) (aF V c) (aO V c) (aG V c) (bI V c) (bF V c) (bO V c) (bG V c) (cP V c) :=
  (dat1 V c).arrAt_eq_of_cover 9 _ (fun t _ => flushedH_eq V c t) cover9

/-- The cell state's array after the region. -/
theorem finalC (c : Dev nD) :
    (dat1 V c).arrAt 10 cfg1.N = cellNext (aI V c) (aF V c) (aG V c) (bI V c) (bF V c) (bG V c) (cP V c) :=
  (dat1 V c).arrAt_eq_of_cover 10 _ (fun t _ => flushedC_eq V c t) cover10

end Cert.KernelIdeal.Gating

end
-- ==== Proof.KernelSpec.lean ====
import proofs.«104125_j6794638262633_1_alg».proof.Proof.Region0Value
import proofs.«104125_j6794638262633_1_alg».proof.Proof.Region1Value
import proofs.«104125_j6794638262633_1_alg».proof.Proof.Glue

noncomputable section

/-! # The kernel program's two results, as functions of the seven arguments

The projection `xl` is the first kernel's array over the two halves of the transposed weight; the aggregation
is the shared function of `xl`, the edge list and the edge weights; the second kernel gates the four 64-column
blocks of the aggregation with the four 64-entry pieces of the bias and the old cell state. -/

namespace Cert.KernelIdeal.Spec

open Cert.KernelIdeal Cert.KernelIdeal.Gen Idealize.ShloMosaic

/-- Rows 0 … 63 of the transposed weight. -/
def wTop (w : FVec Ideal S256x128 .f32) : FVec Ideal S64x256 .f32 :=
  extractStridedSlice S64x256 ![0, 0] (transpose S128x256 [1, 0] w transposes_S256x128_S128x256_1_0) slices_S128x256_S64x256_0_0

/-- Rows 64 … 127 of the transposed weight. -/
def wBot (w : FVec Ideal S256x128 .f32) : FVec Ideal S64x256 .f32 :=
  extractStridedSlice S64x256 ![64, 0] (transpose S128x256 [1, 0] w transposes_S256x128_S128x256_1_0) slices_S128x256_S64x256_64_0

/-- The projected features. -/
def xlOf (x h : FVec Ideal S50000x64 .f32) (w : FVec Ideal S256x128 .f32) : FVec Ideal S50000x256 .f32 :=
  Cert.KernelIdeal.Linear.proj x h (wTop w) (wBot w)

/-- The four 64-column blocks of an aggregation. -/
def col0 (A : FVec Ideal S50000x256 .f32) : FVec Ideal S50000x64 .f32 := extractStridedSlice S50000x64 ![0, 0] A slices_S50000x256_S50000x64_0_0
def col64 (A : FVec Ideal S50000x256 .f32) : FVec Ideal S50000x64 .f32 := extractStridedSlice S50000x64 ![0, 64] A slices_S50000x256_S50000x64_0_64
def col128 (A : FVec Ideal S50000x256 .f32) : FVec Ideal S50000x64 .f32 := extractStridedSlice S50000x64 ![0, 128] A slices_S50000x256_S50000x64_0_128
def col192 (A : FVec Ideal S50000x256 .f32) : FVec Ideal S50000x64 .f32 := extractStridedSlice S50000x64 ![0, 192] A slices_S50000x256_S50000x64_0_192

/-- The four 64-entry pieces of the bias, each as a row. -/
def bias0 (b : FVec Ideal S256 .f32) : FVec Ideal S1x64 .f32 := shapeCast S1x64 (extractStridedSlice S64 ![0] b slices_S256_S64_0) shapeCasts_S64_S1x64
def bias64 (b : FVec Ideal S256 .f32) : FVec Ideal S1x64 .f32 := shapeCast S1x64 (extractStridedSlice S64 ![64] b slices_S256_S64_64) shapeCasts_S64_S1x64
def bias128 (b : FVec Ideal S256 .f32) : FVec Ideal S1x64 .f32 := shapeCast S1x64 (extractStridedSlice S64 ![128] b slices_S256_S64_128) shapeCasts_S64_S1x64
def bias192 (b : FVec Ideal S256 .f32) : FVec Ideal S1x64 .f32 := shapeCast S1x64 (extractStridedSlice S64 ![192] b slices_S256_S64_192) shapeCasts_S64_S1x64

/-- The new hidden state from an aggregation, the bias and the old cell state. -/
def hiddenFrom (A : FVec Ideal S50000x256 .f32) (b : FVec Ideal S256 .f32) (cp : FVec Ideal S50000x64 .f32) : FVec Ideal S50000x64 .f32 :=
  Cert.KernelIdeal.Gating.hiddenNext (col0 A) (col64 A) (col128 A) (col192 A) (bias0 b) (bias64 b) (bias128 b) (bias192 b) cp

/-- The new cell state from an aggregation, the bias and the old cell state. -/
def cellFrom (A : FVec Ideal S50000x256 .f32) (b : FVec Ideal S256 .f32) (cp : FVec Ideal S50000x64 .f32) : FVec Ideal S50000x64 .f32 :=
  Cert.KernelIdeal.Gating.cellNext (col0 A) (col64 A) (col192 A) (bias0 b) (bias64 b) (bias192 b) cp

/-- The aggregation of the projection of the arguments. -/
def aggOfArgs (x h : FVec Ideal S50000x64 .f32) (w : FVec Ideal S256x128 .f32)
    (ei : (⟨S2x800000, .i32⟩ : BufTy).Contents (Elt Ideal)) (ea : FVec Ideal S800000 .f32) : FVec Ideal S50000x256 .f32 :=
  Cert.Glue.aggOf (xlOf x h w) ei ea

end Cert.KernelIdeal.Spec

end
-- ==== Proof.LibBinaryApply.lean ====
import Idealize.ShloMosaic.Lib.StableHlo.Run

noncomputable section

/-! # A host operation of two operands, its result with the operands as plain arguments

An operation over two references leaves, at its result buffer, its function of the two operands' contents. Here that
value is written `apply2 f X Y` with the function kept unapplied and the two contents as ordinary arguments, each read at
its own reference, so that a one-pass reader of a line of operations rewrites the two reads before the function is
applied to them. A function that puts its operands in a place whose type a later argument depends on — the piece list
of a two-piece concatenation, whose evidence speaks of the pieces' shapes — otherwise hides them from the reader. -/

namespace Cert.Binary2

open Idealize.ShloMosaic Idealize.ShloMosaic.StableHlo

variable {τ : Topo} {sig : RefSig} {Val : EltTy → Type} {a b y : Ref sig .tc}

/-- A function of two contents, applied to them one by one. -/
def apply2 (f : a.ty.Contents Val → b.ty.Contents Val → y.ty.Contents Val)
    (X : a.ty.Contents Val) (Y : b.ty.Contents Val) : y.ty.Contents Val :=
  f X Y

/-- The result of an operation over two references, the operands as plain arguments. -/
theorem binary_result_apply (f : a.ty.Contents Val → b.ty.Contents Val → y.ty.Contents Val) (ha hb hy)
    (F : Valuation τ sig Val) :
    (binary (τ := τ) a b y f ha hb hy).result F (Proc.devRef .tc y)
      = apply2 f (F (Proc.devRef .tc a)) (F (Proc.devRef .tc b)) :=
  binary_result a b y f ha hb hy F

/-- The same, with the result reference un-indexed, for a one-pass reader. -/
theorem binary_result_apply' (f : a.ty.Contents Val → b.ty.Contents Val → y.ty.Contents Val) (ha hb hy)
    (F : Valuation τ sig Val) :
    (binary (τ := τ) a b y f ha hb hy).result F (no_index (Proc.devRef .tc y))
      = apply2 f (F (Proc.devRef .tc a)) (F (Proc.devRef .tc b)) :=
  binary_result a b y f ha hb hy F

end Cert.Binary2

end
-- ==== Proof.KernelValue.lean ====
import proofs.«104125_j6794638262633_1_alg».proof.Proof.KernelRun
import proofs.«104125_j6794638262633_1_alg».proof.Proof.Region0Value
import proofs.«104125_j6794638262633_1_alg».proof.Proof.Glue
import proofs.«104125_j6794638262633_1_alg».proof.Proof.KernelSpec
import proofs.«104125_j6794638262633_1_alg».proof.Proof.LibBinaryApply
import proofs.«104125_j6794638262633_1_alg».proof.Proof.Region1Value
import Idealize.ShloMosaic.Lib.StableHlo.Run

noncomputable section

/-! # The kernel program's two results as functions of its arguments

The program's buffers are followed from the launch to the return: the transposed weight's two halves before the
first kernel, the first kernel's array (the projection), the aggregation and the four column blocks and four bias
rows cut for the second kernel, and the second kernel's two arrays. Each step reads the buffers the step before
left, so the two results come out as the gating functions of the column blocks of the aggregation of the
projection of the arguments. -/

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## Before the first kernel: the arguments as launched, the transposed weight cut in two -/

theorem W1_arg0 (c : Dev nD) : W1 m ρ c (Proc.devRef .tc main_arg0) = m ((c : Thread nD τ).loc main_arg0) := by
  show StableHlo.after hostOps0 (W0 m ρ c) _ = _
  after_results

theorem W1_arg1 (c : Dev nD) : W1 m ρ c (Proc.devRef .tc main_arg1) = m ((c : Thread nD τ).loc main_arg1) := by
  show StableHlo.after hostOps0 (W0 m ρ c) _ = _
  after_results

theorem W1_arg2 (c : Dev nD) : W1 m ρ c (Proc.devRef .tc main_arg2) = m ((c : Thread nD τ).loc main_arg2) := by
  show StableHlo.after hostOps0 (W0 m ρ c) _ = _
  after_results

theorem W1_arg4 (c : Dev nD) : W1 m ρ c (Proc.devRef .tc main_arg4) = m ((c : Thread nD τ).loc main_arg4) := by
  show StableHlo.after hostOps0 (W0 m ρ c) _ = _
  after_results

theorem W1_arg5 (c : Dev nD) : W1 m ρ c (Proc.devRef .tc main_arg5) = m ((c : Thread nD τ).loc main_arg5) := by
  show StableHlo.after hostOps0 (W0 m ρ c) _ = _
  after_results

theorem W1_arg6 (c : Dev nD) : W1 m ρ c (Proc.devRef .tc main_arg6) = m ((c : Thread nD τ).loc main_arg6) := by
  show StableHlo.after hostOps0 (W0 m ρ c) _ = _
  after_results

theorem W1_v1 (c : Dev nD) : W1 m ρ c (Proc.devRef .tc main_v1)
    = extractStridedSlice S64x256 ![0, 0] (transpose S128x256 [1, 0] (m ((c : Thread nD τ).loc main_arg3)) transposes_S256x128_S128x256_1_0) slices_S128x256_S64x256_0_0 := by
  show StableHlo.after hostOps0 (W0 m ρ c) _ = _
  after_results

theorem W1_v2 (c : Dev nD) : W1 m ρ c (Proc.devRef .tc main_v2)
    = extractStridedSlice S64x256 ![64, 0] (transpose S128x256 [1, 0] (m ((c : Thread nD τ).loc main_arg3)) transposes_S256x128_S128x256_1_0) slices_S128x256_S64x256_64_0 := by
  show StableHlo.after hostOps0 (W0 m ρ c) _ = _
  after_results

/-! ## After the first kernel: the arguments it does not write are as launched -/

theorem W2_arg2 (c : Dev nD) : W2 m ρ c (Proc.devRef .tc main_arg2) = m ((c : Thread nD τ).loc main_arg2) :=
  (W2_of_ne m ρ c main_arg2 (by decide)).trans (W1_arg2 m ρ c)

theorem W2_arg4 (c : Dev nD) : W2 m ρ c (Proc.devRef .tc main_arg4) = m ((c : Thread nD τ).loc main_arg4) :=
  (W2_of_ne m ρ c main_arg4 (by decide)).trans (W1_arg4 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

/-! ## Before the second kernel: the column blocks of the aggregation, the bias rows, the cell state -/

/-! ## Between the kernels: the edge vectors and the inverse square-root degrees -/

set_option maxRecDepth 65536 in
set_option maxHeartbeats 4000000 in
/-- The source index of every edge, the self-loops appended. -/
theorem W4_v7 (c : Dev nD) : W4 m ρ c (Proc.devRef .tc main_v7) = Cert.ReferenceIdeal.Read.val_main_v6 (F := Ideal) (W2 m ρ c (Proc.devRef .tc main_arg5)) := by
  show StableHlo.after hostOps1_1 (StableHlo.after hostOps1 (W2 m ρ c)) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  try simp only [Cert.Binary2.apply2]
  rfl

set_option maxRecDepth 65536 in
set_option maxHeartbeats 4000000 in
/-- The target index of every edge, the self-loops appended. -/
theorem W4_v11 (c : Dev nD) : W4 m ρ c (Proc.devRef .tc main_v11) = Cert.ReferenceIdeal.Read.val_main_v10 (F := Ideal) (W2 m ρ c (Proc.devRef .tc main_arg5)) := by
  show StableHlo.after hostOps1_1 (StableHlo.after hostOps1 (W2 m ρ c)) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  try simp only [Cert.Binary2.apply2]
  rfl

set_option maxRecDepth 65536 in
set_option maxHeartbeats 4000000 in
/-- The weight of every edge, one for a self-loop. -/
theorem W4_v13 (c : Dev nD) : W4 m ρ c (Proc.devRef .tc main_v13) = Cert.ReferenceIdeal.Read.val_main_v12 (F := Ideal) (W2 m ρ c (Proc.devRef .tc main_arg6)) := by
  show StableHlo.after hostOps1_1 (StableHlo.after hostOps1 (W2 m ρ c)) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  try simp only [Cert.Binary2.apply2]
  rfl

set_option maxRecDepth 65536 in
set_option maxHeartbeats 4000000 in
/-- The projection is not written between the kernels. -/
theorem W4_v3 (c : Dev nD) : W4 m ρ c (Proc.devRef .tc main_v3) = W2 m ρ c (Proc.devRef .tc main_v3) := by
  show StableHlo.after hostOps1_1 (StableHlo.after hostOps1 (W2 m ρ c)) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']

set_option maxRecDepth 65536 in
set_option maxHeartbeats 4000000 in
/-- Where the weighted degree is positive. -/
theorem W3_v18 (c : Dev nD) : W3 m ρ c (Proc.devRef .tc main_v18) = Cert.ReferenceIdeal.Read.val_main_v17 (F := Ideal) (W2 m ρ c (Proc.devRef .tc main_arg5)) (W2 m ρ c (Proc.devRef .tc main_arg6)) := by
  show StableHlo.after hostOps1 (W2 m ρ c) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  try simp only [Cert.Binary2.apply2]
  rfl

set_option maxRecDepth 65536 in
set_option maxHeartbeats 4000000 in
/-- The inverse square root of the weighted degree. -/
theorem W3_v19 (c : Dev nD) : W3 m ρ c (Proc.devRef .tc main_v19) = Cert.ReferenceIdeal.Read.val_main_v18 (F := Ideal) (W2 m ρ c (Proc.devRef .tc main_arg5)) (W2 m ρ c (Proc.devRef .tc main_arg6)) := by
  show StableHlo.after hostOps1 (W2 m ρ c) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  try simp only [Cert.Binary2.apply2]
  rfl

set_option maxRecDepth 65536 in
set_option maxHeartbeats 4000000 in
/-- The fill value. -/
theorem W3_cst2 (c : Dev nD) : W3 m ρ c (Proc.devRef .tc main_cst_2) = Cert.ReferenceIdeal.Read.val_main_cst_2 (F := Ideal) := by
  show StableHlo.after hostOps1 (W2 m ρ c) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  try simp only [Cert.Binary2.apply2]
  rfl

set_option maxRecDepth 65536 in
set_option maxHeartbeats 4000000 in
/-- The inverse square root of each node's weighted degree where that is positive, zero elsewhere. -/
theorem W4_v20 (c : Dev nD) : W4 m ρ c (Proc.devRef .tc main_v20) = Cert.ReferenceIdeal.Read.val_main_v19 (F := Ideal) (W2 m ρ c (Proc.devRef .tc main_arg5)) (W2 m ρ c (Proc.devRef .tc main_arg6)) := by
  have h18 := W3_v18 m ρ c
  have h19 := W3_v19 m ρ c
  have hc2 := W3_cst2 m ρ c
  show StableHlo.after hostOps1_1 (W3 m ρ c) _ = _
  generalize W3 m ρ c = Wv at h18 h19 hc2 ⊢
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  simp only [Cert.ReferenceIdeal.Read.val_main_v19, Cert.ReferenceIdeal.Read.val_main_call0_v1, Cert.ReferenceIdeal.Read.val_main_call0_v0]
  rw [← h18, ← h19, ← hc2]
  rfl

/-! ## Before the second kernel: the column blocks of the aggregation, the bias rows, the cell state -/

set_option maxRecDepth 65536 in
set_option maxHeartbeats 4000000 in
theorem W5_v50 (c : Dev nD) : W5 m ρ c (Proc.devRef .tc main_v50)
    = extractStridedSlice S50000x64 ![0, 0] (Cert.Glue.aggOf (W2 m ρ c (Proc.devRef .tc main_v3)) (W2 m ρ c (Proc.devRef .tc main_arg5)) (W2 m ρ c (Proc.devRef .tc main_arg6))) slices_S50000x256_S50000x64_0_0 := by
  have h7 := W4_v7 m ρ c
  have h11 := W4_v11 m ρ c
  have h13 := W4_v13 m ρ c
  have h20 := W4_v20 m ρ c
  have h3 := W4_v3 m ρ c
  show StableHlo.after hostOps1_2 (W4 m ρ c) _ = _
  generalize W4 m ρ c = Wv at h7 h11 h13 h20 h3 ⊢
  after_results_simp
  simp only [Cert.Glue.aggOf, Cert.ReferenceIdeal.Read.val_main_v46, Cert.ReferenceIdeal.Read.val_main_cst_8, Cert.ReferenceIdeal.Read.val_main_v47, Cert.ReferenceIdeal.Read.val_main_v44, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_c_5, Cert.ReferenceIdeal.Read.val_main_v29, Cert.ReferenceIdeal.Read.val_main_v28, Cert.ReferenceIdeal.Read.val_main_c_4, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_c_3, Cert.ReferenceIdeal.Read.val_main_v21, Cert.ReferenceIdeal.Read.val_main_v20, Cert.ReferenceIdeal.Read.val_main_c, Cert.ReferenceIdeal.Read.val_main_v42, Cert.ReferenceIdeal.Read.val_main_v41, Cert.ReferenceIdeal.Read.val_main_v40, Cert.ReferenceIdeal.Read.val_main_v39, Cert.ReferenceIdeal.Read.val_main_c_7, Cert.ReferenceIdeal.Read.val_main_v38, Cert.ReferenceIdeal.Read.val_main_v37, Cert.ReferenceIdeal.Read.val_main_c_6]
  rw [← h7, ← h11, ← h13, ← h20, ← h3]
  rfl

set_option maxRecDepth 65536 in
set_option maxHeartbeats 4000000 in
theorem W5_v51 (c : Dev nD) : W5 m ρ c (Proc.devRef .tc main_v51)
    = extractStridedSlice S50000x64 ![0, 64] (Cert.Glue.aggOf (W2 m ρ c (Proc.devRef .tc main_v3)) (W2 m ρ c (Proc.devRef .tc main_arg5)) (W2 m ρ c (Proc.devRef .tc main_arg6))) slices_S50000x256_S50000x64_0_64 := by
  have h7 := W4_v7 m ρ c
  have h11 := W4_v11 m ρ c
  have h13 := W4_v13 m ρ c
  have h20 := W4_v20 m ρ c
  have h3 := W4_v3 m ρ c
  show StableHlo.after hostOps1_2 (W4 m ρ c) _ = _
  generalize W4 m ρ c = Wv at h7 h11 h13 h20 h3 ⊢
  after_results_simp
  simp only [Cert.Glue.aggOf, Cert.ReferenceIdeal.Read.val_main_v46, Cert.ReferenceIdeal.Read.val_main_cst_8, Cert.ReferenceIdeal.Read.val_main_v47, Cert.ReferenceIdeal.Read.val_main_v44, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_c_5, Cert.ReferenceIdeal.Read.val_main_v29, Cert.ReferenceIdeal.Read.val_main_v28, Cert.ReferenceIdeal.Read.val_main_c_4, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_c_3, Cert.ReferenceIdeal.Read.val_main_v21, Cert.ReferenceIdeal.Read.val_main_v20, Cert.ReferenceIdeal.Read.val_main_c, Cert.ReferenceIdeal.Read.val_main_v42, Cert.ReferenceIdeal.Read.val_main_v41, Cert.ReferenceIdeal.Read.val_main_v40, Cert.ReferenceIdeal.Read.val_main_v39, Cert.ReferenceIdeal.Read.val_main_c_7, Cert.ReferenceIdeal.Read.val_main_v38, Cert.ReferenceIdeal.Read.val_main_v37, Cert.ReferenceIdeal.Read.val_main_c_6]
  rw [← h7, ← h11, ← h13, ← h20, ← h3]
  rfl

set_option maxRecDepth 65536 in
set_option maxHeartbeats 4000000 in
theorem W5_v52 (c : Dev nD) : W5 m ρ c (Proc.devRef .tc main_v52)
    = extractStridedSlice S50000x64 ![0, 128] (Cert.Glue.aggOf (W2 m ρ c (Proc.devRef .tc main_v3)) (W2 m ρ c (Proc.devRef .tc main_arg5)) (W2 m ρ c (Proc.devRef .tc main_arg6))) slices_S50000x256_S50000x64_0_128 := by
  have h7 := W4_v7 m ρ c
  have h11 := W4_v11 m ρ c
  have h13 := W4_v13 m ρ c
  have h20 := W4_v20 m ρ c
  have h3 := W4_v3 m ρ c
  show StableHlo.after hostOps1_2 (W4 m ρ c) _ = _
  generalize W4 m ρ c = Wv at h7 h11 h13 h20 h3 ⊢
  after_results_simp
  simp only [Cert.Glue.aggOf, Cert.ReferenceIdeal.Read.val_main_v46, Cert.ReferenceIdeal.Read.val_main_cst_8, Cert.ReferenceIdeal.Read.val_main_v47, Cert.ReferenceIdeal.Read.val_main_v44, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_c_5, Cert.ReferenceIdeal.Read.val_main_v29, Cert.ReferenceIdeal.Read.val_main_v28, Cert.ReferenceIdeal.Read.val_main_c_4, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_c_3, Cert.ReferenceIdeal.Read.val_main_v21, Cert.ReferenceIdeal.Read.val_main_v20, Cert.ReferenceIdeal.Read.val_main_c, Cert.ReferenceIdeal.Read.val_main_v42, Cert.ReferenceIdeal.Read.val_main_v41, Cert.ReferenceIdeal.Read.val_main_v40, Cert.ReferenceIdeal.Read.val_main_v39, Cert.ReferenceIdeal.Read.val_main_c_7, Cert.ReferenceIdeal.Read.val_main_v38, Cert.ReferenceIdeal.Read.val_main_v37, Cert.ReferenceIdeal.Read.val_main_c_6]
  rw [← h7, ← h11, ← h13, ← h20, ← h3]
  rfl

set_option maxRecDepth 65536 in
set_option maxHeartbeats 4000000 in
theorem W5_v53 (c : Dev nD) : W5 m ρ c (Proc.devRef .tc main_v53)
    = extractStridedSlice S50000x64 ![0, 192] (Cert.Glue.aggOf (W2 m ρ c (Proc.devRef .tc main_v3)) (W2 m ρ c (Proc.devRef .tc main_arg5)) (W2 m ρ c (Proc.devRef .tc main_arg6))) slices_S50000x256_S50000x64_0_192 := by
  have h7 := W4_v7 m ρ c
  have h11 := W4_v11 m ρ c
  have h13 := W4_v13 m ρ c
  have h20 := W4_v20 m ρ c
  have h3 := W4_v3 m ρ c
  show StableHlo.after hostOps1_2 (W4 m ρ c) _ = _
  generalize W4 m ρ c = Wv at h7 h11 h13 h20 h3 ⊢
  after_results_simp
  simp only [Cert.Glue.aggOf, Cert.ReferenceIdeal.Read.val_main_v46, Cert.ReferenceIdeal.Read.val_main_cst_8, Cert.ReferenceIdeal.Read.val_main_v47, Cert.ReferenceIdeal.Read.val_main_v44, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_c_5, Cert.ReferenceIdeal.Read.val_main_v29, Cert.ReferenceIdeal.Read.val_main_v28, Cert.ReferenceIdeal.Read.val_main_c_4, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_c_3, Cert.ReferenceIdeal.Read.val_main_v21, Cert.ReferenceIdeal.Read.val_main_v20, Cert.ReferenceIdeal.Read.val_main_c, Cert.ReferenceIdeal.Read.val_main_v42, Cert.ReferenceIdeal.Read.val_main_v41, Cert.ReferenceIdeal.Read.val_main_v40, Cert.ReferenceIdeal.Read.val_main_v39, Cert.ReferenceIdeal.Read.val_main_c_7, Cert.ReferenceIdeal.Read.val_main_v38, Cert.ReferenceIdeal.Read.val_main_v37, Cert.ReferenceIdeal.Read.val_main_c_6]
  rw [← h7, ← h11, ← h13, ← h20, ← h3]
  rfl

set_option maxRecDepth 65536 in
set_option maxHeartbeats 4000000 in
theorem W5_v55 (c : Dev nD) : W5 m ρ c (Proc.devRef .tc main_v55)
    = shapeCast S1x64 (extractStridedSlice S64 ![0] (W2 m ρ c (Proc.devRef .tc main_arg4)) slices_S256_S64_0) shapeCasts_S64_S1x64 := by
  show StableHlo.after hostOps1_2 (StableHlo.after hostOps1_1 (StableHlo.after hostOps1 (W2 m ρ c))) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  rfl

set_option maxRecDepth 65536 in
set_option maxHeartbeats 4000000 in
theorem W5_v57 (c : Dev nD) : W5 m ρ c (Proc.devRef .tc main_v57)
    = shapeCast S1x64 (extractStridedSlice S64 ![64] (W2 m ρ c (Proc.devRef .tc main_arg4)) slices_S256_S64_64) shapeCasts_S64_S1x64 := by
  show StableHlo.after hostOps1_2 (StableHlo.after hostOps1_1 (StableHlo.after hostOps1 (W2 m ρ c))) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  rfl

set_option maxRecDepth 65536 in
set_option maxHeartbeats 4000000 in
theorem W5_v59 (c : Dev nD) : W5 m ρ c (Proc.devRef .tc main_v59)
    = shapeCast S1x64 (extractStridedSlice S64 ![128] (W2 m ρ c (Proc.devRef .tc main_arg4)) slices_S256_S64_128) shapeCasts_S64_S1x64 := by
  show StableHlo.after hostOps1_2 (StableHlo.after hostOps1_1 (StableHlo.after hostOps1 (W2 m ρ c))) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  rfl

set_option maxRecDepth 65536 in
set_option maxHeartbeats 4000000 in
theorem W5_v61 (c : Dev nD) : W5 m ρ c (Proc.devRef .tc main_v61)
    = shapeCast S1x64 (extractStridedSlice S64 ![192] (W2 m ρ c (Proc.devRef .tc main_arg4)) slices_S256_S64_192) shapeCasts_S64_S1x64 := by
  show StableHlo.after hostOps1_2 (StableHlo.after hostOps1_1 (StableHlo.after hostOps1 (W2 m ρ c))) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']
  rfl

set_option maxRecDepth 65536 in
set_option maxHeartbeats 4000000 in
theorem W5_arg2 (c : Dev nD) : W5 m ρ c (Proc.devRef .tc main_arg2) = W2 m ρ c (Proc.devRef .tc main_arg2) := by
  show StableHlo.after hostOps1_2 (StableHlo.after hostOps1_1 (StableHlo.after hostOps1 (W2 m ρ c))) _ = _
  simp (disch := decide) only [StableHlo.after_cons, StableHlo.after_nil,
    StableHlo.nullary_result', StableHlo.unary_result', Cert.Binary2.binary_result_apply', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne']

/-! ## The first kernel's array is the projection of the arguments -/

theorem xl_eq (c : Dev nD) : W2 m ρ c (Proc.devRef .tc main_v3)
    = Cert.KernelIdeal.Spec.xlOf (m ((c : Thread nD τ).loc main_arg0)) (m ((c : Thread nD τ).loc main_arg1)) (m ((c : Thread nD τ).loc main_arg3)) := by
  refine (W2_arr m ρ c 4).trans ((Cert.KernelIdeal.Linear.final (V1 m ρ) c).trans ?_)
  show Cert.KernelIdeal.Linear.proj (W1 m ρ c (Proc.devRef .tc main_arg0)) (W1 m ρ c (Proc.devRef .tc main_arg1))
      (W1 m ρ c (Proc.devRef .tc main_v1)) (W1 m ρ c (Proc.devRef .tc main_v2)) = _
  rw [W1_arg0, W1_arg1, W1_v1, W1_v2]
  rfl

/-! ## The two results -/

/-- The aggregation the second kernel's column blocks are cut from, over the arguments. -/
theorem agg_args (c : Dev nD) :
    Cert.Glue.aggOf (W2 m ρ c (Proc.devRef .tc main_v3)) (W2 m ρ c (Proc.devRef .tc main_arg5)) (W2 m ρ c (Proc.devRef .tc main_arg6))
      = Cert.KernelIdeal.Spec.aggOfArgs (m ((c : Thread nD τ).loc main_arg0)) (m ((c : Thread nD τ).loc main_arg1))
          (m ((c : Thread nD τ).loc main_arg3)) (m ((c : Thread nD τ).loc main_arg5)) (m ((c : Thread nD τ).loc main_arg6)) := by
  rw [xl_eq, W2_arg5, W2_arg6]
  rfl

/-- The new hidden state, at the last boundary. -/
theorem result_h (c : Dev nD) : W6 m ρ c (Proc.devRef .tc main_v62_0)
    = Cert.KernelIdeal.Spec.hiddenFrom
        (Cert.KernelIdeal.Spec.aggOfArgs (m ((c : Thread nD τ).loc main_arg0)) (m ((c : Thread nD τ).loc main_arg1))
          (m ((c : Thread nD τ).loc main_arg3)) (m ((c : Thread nD τ).loc main_arg5)) (m ((c : Thread nD τ).loc main_arg6)))
        (m ((c : Thread nD τ).loc main_arg4)) (m ((c : Thread nD τ).loc main_arg2)) := by
  refine (W6_arr m ρ c 9).trans ((Cert.KernelIdeal.Gating.finalH (V5 m ρ) c).trans ?_)
  show Cert.KernelIdeal.Gating.hiddenNext (W5 m ρ c (Proc.devRef .tc main_v50)) (W5 m ρ c (Proc.devRef .tc main_v51))
      (W5 m ρ c (Proc.devRef .tc main_v52)) (W5 m ρ c (Proc.devRef .tc main_v53)) (W5 m ρ c (Proc.devRef .tc main_v55))
      (W5 m ρ c (Proc.devRef .tc main_v57)) (W5 m ρ c (Proc.devRef .tc main_v59)) (W5 m ρ c (Proc.devRef .tc main_v61))
      (W5 m ρ c (Proc.devRef .tc main_arg2)) = _
  rw [W5_v50, W5_v51, W5_v52, W5_v53, W5_v55, W5_v57, W5_v59, W5_v61, W5_arg2, agg_args, W2_arg4, W2_arg2]
  rfl

/-- The new cell state, at the last boundary. -/
theorem result_c (c : Dev nD) : W6 m ρ c (Proc.devRef .tc main_v62_1)
    = Cert.KernelIdeal.Spec.cellFrom
        (Cert.KernelIdeal.Spec.aggOfArgs (m ((c : Thread nD τ).loc main_arg0)) (m ((c : Thread nD τ).loc main_arg1))
          (m ((c : Thread nD τ).loc main_arg3)) (m ((c : Thread nD τ).loc main_arg5)) (m ((c : Thread nD τ).loc main_arg6)))
        (m ((c : Thread nD τ).loc main_arg4)) (m ((c : Thread nD τ).loc main_arg2)) := by
  refine (W6_arr m ρ c 10).trans ((Cert.KernelIdeal.Gating.finalC (V5 m ρ) c).trans ?_)
  show Cert.KernelIdeal.Gating.cellNext (W5 m ρ c (Proc.devRef .tc main_v50)) (W5 m ρ c (Proc.devRef .tc main_v51))
      (W5 m ρ c (Proc.devRef .tc main_v53)) (W5 m ρ c (Proc.devRef .tc main_v55))
      (W5 m ρ c (Proc.devRef .tc main_v57)) (W5 m ρ c (Proc.devRef .tc main_v61))
      (W5 m ρ c (Proc.devRef .tc main_arg2)) = _
  rw [W5_v50, W5_v51, W5_v53, W5_v55, W5_v57, W5_v61, W5_arg2, agg_args, W2_arg4, W2_arg2]
  rfl

/-- Every weakly fair execution of the kernel program ends with its two results at the gating functions of the
    aggregation of the projection of the arguments, and the arguments as launched. -/
theorem run : θ_run defs (onTc (τ := τ) (main (F := Ideal))) ⟨m, fun _ => 0, ρ⟩ (fun r => ∀ c : Dev nD,
      r.2.mem ((c.tc : Thread nD τ).loc main_v62_0)
        = Cert.KernelIdeal.Spec.hiddenFrom
            (Cert.KernelIdeal.Spec.aggOfArgs (m ((c : Thread nD τ).loc main_arg0)) (m ((c : Thread nD τ).loc main_arg1))
              (m ((c : Thread nD τ).loc main_arg3)) (m ((c : Thread nD τ).loc main_arg5)) (m ((c : Thread nD τ).loc main_arg6)))
            (m ((c : Thread nD τ).loc main_arg4)) (m ((c : Thread nD τ).loc main_arg2))
      ∧ r.2.mem ((c.tc : Thread nD τ).loc main_v62_1)
        = Cert.KernelIdeal.Spec.cellFrom
            (Cert.KernelIdeal.Spec.aggOfArgs (m ((c : Thread nD τ).loc main_arg0)) (m ((c : Thread nD τ).loc main_arg1))
              (m ((c : Thread nD τ).loc main_arg3)) (m ((c : Thread nD τ).loc main_arg5)) (m ((c : Thread nD τ).loc main_arg6)))
            (m ((c : Thread nD τ).loc main_arg4)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_h m ρ c), (h c).2.1.trans (result_c m ρ c), (h c).2.2⟩)
    (Cert.KernelIdeal.Results.run m ρ)

end Cert.KernelIdeal.Whole

end
-- ==== Proof.LibConcat2Dot.lean ====
import Idealize.ShloMosaic.PureOps.Ideal.Laws
import Idealize.ShloMosaic.Lib.ValueIdx
import Idealize.ShloMosaic.Lib.Pipeline.Value
import proofs.«104125_j6794638262633_1_alg».proof.Proof.LibPlainDot

noncomputable section

open scoped BigOperators

/-! # A product of two arrays side by side with one matrix, at an entry

Two arrays of `M` rows and `K₁`, `K₂` columns, joined along the columns into one array of `K = K₁ + K₂`
columns and multiplied by a matrix `W` of `K` rows. Entry `(r, c)` of the product is
`∑ k < K, [A B](r, k) · W(k, c)`; the range of `k` splits at `K₁`, the joined row reads `A` below the split and
`B` above it, and the rows of `W` above the split are the rows of its lower band. So the entry is
`∑ k < K₁, A(r, k) · W₁(k, c) + ∑ k < K₂, B(r, k) · W₂(k, c)` with `W₁`, `W₂` the two row bands of `W`. Only that
a finite sum on the extended reals splits over a split of its range is used, so no operand need be finite. -/

namespace Cert.Concat2Dot

open Idealize.ShloMosaic Idealize.ShloMosaic.ValueIdx

variable {M K₁ K₂ K N o₂ : ℕ}

/-- Entry `(r, c)` of the host product of the joined array with `W` is the sum of the two arrays' own row-by-column
    sums against the two row bands of `W` (rows `0 …` and `K₁ …`). -/
theorem dotGeneral_concat2_apply {φ₁ φ₂ : FTy} (hK : K₁ + K₂ = K) (ho₂ : K₁ = o₂)
    (hc : Shape.Concatenates [(⟨2, ![M, K₁]⟩ : Shape), ⟨2, ![M, K₂]⟩] ⟨2, ![M, K]⟩ 1)
    (d : DotDims ⟨2, ![M, K]⟩ ⟨2, ![K, N]⟩ ⟨2, ![M, N]⟩) (hd : d = DotDims.plain M K N)
    (s₁ : (⟨2, ![K, N]⟩ : Shape).Slices ![0, 0] ⟨2, ![K₁, N]⟩)
    (s₂ : (⟨2, ![K, N]⟩ : Shape).Slices ![o₂, 0] ⟨2, ![K₂, N]⟩)
    (p : Option ContractPrecision)
    (A : FVec Ideal ⟨2, ![M, K₁]⟩ φ₁) (B : FVec Ideal ⟨2, ![M, K₂]⟩ φ₁) (W : FVec Ideal ⟨2, ![K, N]⟩ φ₂)
    (r : Fin M) (c : Fin N) :
    Host.dotGeneral d p (concatenate ⟨2, ![M, K]⟩ 1 [⟨⟨2, ![M, K₁]⟩, A⟩, ⟨⟨2, ![M, K₂]⟩, B⟩] hc) W (ix2 r c)
      = (∑ k : Fin K₁, A (ix2 r k) * extractStridedSlice ⟨2, ![K₁, N]⟩ ![0, 0] W s₁ (ix2 k c))
        + ∑ k : Fin K₂, B (ix2 r k) * extractStridedSlice ⟨2, ![K₂, N]⟩ ![o₂, 0] W s₂ (ix2 k c) := by
  subst hK ho₂
  refine (Cert.PlainDot.dotGeneral_apply d hd p .single _ W (ix2 r c)).trans ?_
  rw [Fin.sum_univ_add]
  refine congrArg₂ (· + ·) ?_ ?_
  · -- below the split: columns `k < K₁` of the joined row are `A`'s, rows `k` of `W` the first band's
    refine Finset.sum_congr rfl fun k _ => ?_
    refine congrArg₂ (· * ·) ?_ ?_
    · refine concatenate_apply_piece 1 [⟨⟨2, ![M, K₁]⟩, A⟩, ⟨⟨2, ![M, K₂]⟩, B⟩] hc _ 0
        (by show 0 < 2; omega) ⟨2, ![M, K₁]⟩ A rfl rfl 0 rfl (ix2 r k) (fun b hb => ?_) ?_
      · match b with
        | ⟨0, _⟩ => rfl
        | ⟨1, _⟩ => exact absurd rfl hb
      · show 0 + k.val = k.val; omega
    · refine Eq.symm (extractStridedSlice_apply ![0, 0] W s₁ (ix2 k c) _ fun a => ?_)
      match a with
      | ⟨0, _⟩ => show k.val = 0 + k.val; omega
      | ⟨1, _⟩ => show c.val = 0 + c.val; omega
  · -- above the split: columns `K₁ + k`
    refine Finset.sum_congr rfl fun k _ => ?_
    refine congrArg₂ (· * ·) ?_ ?_
    · refine concatenate_apply_piece 1 [⟨⟨2, ![M, K₁]⟩, A⟩, ⟨⟨2, ![M, K₂]⟩, B⟩] hc _ 1
        (by show 1 < 2; omega) ⟨2, ![M, K₂]⟩ B rfl rfl K₁ (by simp [List.take, List.map, List.sum_cons]) (ix2 r k) (fun b hb => ?_) ?_
      · match b with
        | ⟨0, _⟩ => rfl
        | ⟨1, _⟩ => exact absurd rfl hb
      · show K₁ + k.val = K₁ + k.val; rfl
    · refine Eq.symm (extractStridedSlice_apply ![K₁, 0] W s₂ (ix2 k c) _ fun a => ?_)
      match a with
      | ⟨0, _⟩ => show K₁ + k.val = K₁ + k.val; rfl
      | ⟨1, _⟩ => show c.val = 0 + c.val; omega

end Cert.Concat2Dot

end
-- ==== Proof.Bridge.lean ====
import proofs.«104125_j6794638262633_1_alg».proof.Proof.KernelSpec
import proofs.«104125_j6794638262633_1_alg».proof.Proof.LibConcat2Dot
import proofs.«104125_j6794638262633_1_alg».proof.Proof.Gen.ReferenceIdeal.Read
import Idealize.ShloMosaic.Lib.IdealHost
import Idealize.ShloMosaic.Lib.ValueLayout
import Idealize.ShloMosaic.Lib.Pipeline.Value

set_option maxRecDepth 16384

noncomputable section

/-! # The reference computes the kernel program's two functions

Three things differ between the reference and the kernel program. The reference multiplies the rows of `[x h]`
by the whole transposed weight, where the kernel adds two products with its halves: a sum over 128 positions
split at 64. The reference adds the bias to the whole aggregation and then cuts four column blocks, where the
kernel cuts the blocks and the bias pieces first: the same entries. And the reference spells the logistic
function `1 / (1 + e^(−z))` out, with the unit word for `1`, where the kernel has the one operation: on the
extended reals that operation is that expression. Everything between, the aggregation, is the same function of
the projection on both sides and stays closed. -/

namespace Cert.Bridge

open Cert.ReferenceIdeal Cert.ReferenceIdeal.Gen Cert.ReferenceIdeal.Read
open Idealize.ShloMosaic Idealize.ShloMosaic.ValueIdx

/-! ## The projection -/

/-- The reference's product of the joined rows with the transposed weight is the kernel's sum of two products. -/
theorem proj_eq (x0 x1 : FVec Ideal S50000x64 .f32) (x3 : FVec Ideal S256x128 .f32) :
    val_main_v2 (F := Ideal) x0 x1 x3 = Cert.KernelIdeal.Spec.xlOf x0 x1 x3 := by
  funext i
  obtain ⟨p, q, rfl⟩ : ∃ (p : Fin 50000) (q : Fin 256), i = ix2 p q := ⟨i 0, i 1, eq_ix2 i⟩
  unfold val_main_v2 val_main_v0 val_main_v1
  exact Cert.Concat2Dot.dotGeneral_concat2_apply (K₁ := 64) (K₂ := 64) (K := 128) (o₂ := 64) rfl rfl _ _ rfl _ _ none x0 x1 _ p q

/-- So the reference's aggregation is the kernel program's. -/
theorem agg_eq (x0 x1 : FVec Ideal S50000x64 .f32) (x3 : FVec Ideal S256x128 .f32) (x5 : (⟨S2x800000, .i32⟩ : BufTy).Contents (Elt Ideal)) (x6 : FVec Ideal S800000 .f32) :
    val_main_v48 (F := Ideal) x0 x1 x3 x5 x6 = Cert.KernelIdeal.Spec.aggOfArgs x0 x1 x3 x5 x6 := by
  rw [Cert.Glue.agg_ref, proj_eq]
  rfl

/-! ## Column blocks and bias pieces, read at an entry -/

/-- Column `q` of the block that starts at column 0. -/
def colAt0 (q : Fin 64) : Fin 256 := ⟨q.val, by have := q.isLt; omega⟩
/-- Column `q` of the block that starts at column `o`. -/
def colAt (o : ℕ) (ho : o + 64 ≤ 256) (q : Fin 64) : Fin 256 := ⟨o + q.val, by have := q.isLt; omega⟩

theorem col0_apply (A : FVec Ideal S50000x256 .f32) (p : Fin 50000) (q : Fin 64) :
    Cert.KernelIdeal.Spec.col0 A (ix2 p q) = A (ix2 p (colAt0 q)) := by
  unfold Cert.KernelIdeal.Spec.col0
  exact extractStridedSlice_apply ![0, 0] A _ (ix2 p q) (ix2 p (colAt0 q)) (fun a => match a with
    | ⟨0, _⟩ => by show p.val = 0 + p.val; omega
    | ⟨1, _⟩ => by show q.val = 0 + q.val; omega)

theorem col64_apply (A : FVec Ideal S50000x256 .f32) (p : Fin 50000) (q : Fin 64) :
    Cert.KernelIdeal.Spec.col64 A (ix2 p q) = A (ix2 p (colAt 64 (by omega) q)) := by
  unfold Cert.KernelIdeal.Spec.col64
  exact extractStridedSlice_apply ![0, 64] A _ (ix2 p q) (ix2 p (colAt 64 (by omega) q)) (fun a => match a with
    | ⟨0, _⟩ => by show p.val = 0 + p.val; omega
    | ⟨1, _⟩ => by show 64 + q.val = 64 + q.val; omega)

theorem col128_apply (A : FVec Ideal S50000x256 .f32) (p : Fin 50000) (q : Fin 64) :
    Cert.KernelIdeal.Spec.col128 A (ix2 p q) = A (ix2 p (colAt 128 (by omega) q)) := by
  unfold Cert.KernelIdeal.Spec.col128
  exact extractStridedSlice_apply ![0, 128] A _ (ix2 p q) (ix2 p (colAt 128 (by omega) q)) (fun a => match a with
    | ⟨0, _⟩ => by show p.val = 0 + p.val; omega
    | ⟨1, _⟩ => by show 128 + q.val = 128 + q.val; omega)

theorem col192_apply (A : FVec Ideal S50000x256 .f32) (p : Fin 50000) (q : Fin 64) :
    Cert.KernelIdeal.Spec.col192 A (ix2 p q) = A (ix2 p (colAt 192 (by omega) q)) := by
  unfold Cert.KernelIdeal.Spec.col192
  exact extractStridedSlice_apply ![0, 192] A _ (ix2 p q) (ix2 p (colAt 192 (by omega) q)) (fun a => match a with
    | ⟨0, _⟩ => by show p.val = 0 + p.val; omega
    | ⟨1, _⟩ => by show 192 + q.val = 192 + q.val; omega)

theorem bias0_apply (b : FVec Ideal S256 .f32) (q : Fin 64) :
    Cert.KernelIdeal.Spec.bias0 b (ix2 (0 : Fin 1) q) = b (ix1 (colAt0 q)) := by
  unfold Cert.KernelIdeal.Spec.bias0
  rw [shapeCast_a_1a_apply]
  exact extractStridedSlice_apply ![0] b _ (ix1 q) (ix1 (colAt0 q)) (fun a => match a with
    | ⟨0, _⟩ => by show q.val = 0 + q.val; omega)

theorem bias64_apply (b : FVec Ideal S256 .f32) (q : Fin 64) :
    Cert.KernelIdeal.Spec.bias64 b (ix2 (0 : Fin 1) q) = b (ix1 (colAt 64 (by omega) q)) := by
  unfold Cert.KernelIdeal.Spec.bias64
  rw [shapeCast_a_1a_apply]
  exact extractStridedSlice_apply ![64] b _ (ix1 q) (ix1 (colAt 64 (by omega) q)) (fun a => match a with
    | ⟨0, _⟩ => by show 64 + q.val = 64 + q.val; omega)

theorem bias128_apply (b : FVec Ideal S256 .f32) (q : Fin 64) :
    Cert.KernelIdeal.Spec.bias128 b (ix2 (0 : Fin 1) q) = b (ix1 (colAt 128 (by omega) q)) := by
  unfold Cert.KernelIdeal.Spec.bias128
  rw [shapeCast_a_1a_apply]
  exact extractStridedSlice_apply ![128] b _ (ix1 q) (ix1 (colAt 128 (by omega) q)) (fun a => match a with
    | ⟨0, _⟩ => by show 128 + q.val = 128 + q.val; omega)

theorem bias192_apply (b : FVec Ideal S256 .f32) (q : Fin 64) :
    Cert.KernelIdeal.Spec.bias192 b (ix2 (0 : Fin 1) q) = b (ix1 (colAt 192 (by omega) q)) := by
  unfold Cert.KernelIdeal.Spec.bias192
  rw [shapeCast_a_1a_apply]
  exact extractStridedSlice_apply ![192] b _ (ix1 q) (ix1 (colAt 192 (by omega) q)) (fun a => match a with
    | ⟨0, _⟩ => by show 192 + q.val = 192 + q.val; omega)

theorem ref_col0 (x0 x1 : FVec Ideal S50000x64 .f32) (x3 : FVec Ideal S256x128 .f32) (x4 : FVec Ideal S256 .f32)
    (x5 : (⟨S2x800000, .i32⟩ : BufTy).Contents (Elt Ideal)) (x6 : FVec Ideal S800000 .f32) (p : Fin 50000) (q : Fin 64) :
    val_main_v52 (F := Ideal) x0 x1 x3 x4 x5 x6 (ix2 p q)
      = FloatOps.addf (val_main_v48 (F := Ideal) x0 x1 x3 x5 x6 (ix2 p (colAt0 q))) (x4 (ix1 (colAt0 q))) := by
  rw [val_main_v52_apply, val_main_v51_apply, val_main_v50_apply, val_main_v49_apply]
  have e1 : idx_main_v52 (ix2 p q) = ix2 p (colAt0 q) := funext fun a => match a with
    | ⟨0, _⟩ => Fin.ext rfl
    | ⟨1, _⟩ => Fin.ext rfl
  have e2 : idx_main_v49 (idx_main_v50 (idx_main_v52 (ix2 p q))) = ix1 (colAt0 q) := funext fun a => match a with
    | ⟨0, _⟩ => Fin.ext rfl
  rw [e2, e1]

theorem ref_col64 (x0 x1 : FVec Ideal S50000x64 .f32) (x3 : FVec Ideal S256x128 .f32) (x4 : FVec Ideal S256 .f32)
    (x5 : (⟨S2x800000, .i32⟩ : BufTy).Contents (Elt Ideal)) (x6 : FVec Ideal S800000 .f32) (p : Fin 50000) (q : Fin 64) :
    val_main_v53 (F := Ideal) x0 x1 x3 x4 x5 x6 (ix2 p q)
      = FloatOps.addf (val_main_v48 (F := Ideal) x0 x1 x3 x5 x6 (ix2 p (colAt 64 (by omega) q))) (x4 (ix1 (colAt 64 (by omega) q))) := by
  rw [val_main_v53_apply, val_main_v51_apply, val_main_v50_apply, val_main_v49_apply]
  have e1 : idx_main_v53 (ix2 p q) = ix2 p (colAt 64 (by omega) q) := funext fun a => match a with
    | ⟨0, _⟩ => Fin.ext rfl
    | ⟨1, _⟩ => Fin.ext rfl
  have e2 : idx_main_v49 (idx_main_v50 (idx_main_v53 (ix2 p q))) = ix1 (colAt 64 (by omega) q) := funext fun a => match a with
    | ⟨0, _⟩ => Fin.ext rfl
  rw [e2, e1]

theorem ref_col128 (x0 x1 : FVec Ideal S50000x64 .f32) (x3 : FVec Ideal S256x128 .f32) (x4 : FVec Ideal S256 .f32)
    (x5 : (⟨S2x800000, .i32⟩ : BufTy).Contents (Elt Ideal)) (x6 : FVec Ideal S800000 .f32) (p : Fin 50000) (q : Fin 64) :
    val_main_v54 (F := Ideal) x0 x1 x3 x4 x5 x6 (ix2 p q)
      = FloatOps.addf (val_main_v48 (F := Ideal) x0 x1 x3 x5 x6 (ix2 p (colAt 128 (by omega) q))) (x4 (ix1 (colAt 128 (by omega) q))) := by
  rw [val_main_v54_apply, val_main_v51_apply, val_main_v50_apply, val_main_v49_apply]
  have e1 : idx_main_v54 (ix2 p q) = ix2 p (colAt 128 (by omega) q) := funext fun a => match a with
    | ⟨0, _⟩ => Fin.ext rfl
    | ⟨1, _⟩ => Fin.ext rfl
  have e2 : idx_main_v49 (idx_main_v50 (idx_main_v54 (ix2 p q))) = ix1 (colAt 128 (by omega) q) := funext fun a => match a with
    | ⟨0, _⟩ => Fin.ext rfl
  rw [e2, e1]

theorem ref_col192 (x0 x1 : FVec Ideal S50000x64 .f32) (x3 : FVec Ideal S256x128 .f32) (x4 : FVec Ideal S256 .f32)
    (x5 : (⟨S2x800000, .i32⟩ : BufTy).Contents (Elt Ideal)) (x6 : FVec Ideal S800000 .f32) (p : Fin 50000) (q : Fin 64) :
    val_main_v55 (F := Ideal) x0 x1 x3 x4 x5 x6 (ix2 p q)
      = FloatOps.addf (val_main_v48 (F := Ideal) x0 x1 x3 x5 x6 (ix2 p (colAt 192 (by omega) q))) (x4 (ix1 (colAt 192 (by omega) q))) := by
  rw [val_main_v55_apply, val_main_v51_apply, val_main_v50_apply, val_main_v49_apply]
  have e1 : idx_main_v55 (ix2 p q) = ix2 p (colAt 192 (by omega) q) := funext fun a => match a with
    | ⟨0, _⟩ => Fin.ext rfl
    | ⟨1, _⟩ => Fin.ext rfl
  have e2 : idx_main_v49 (idx_main_v50 (idx_main_v55 (ix2 p q))) = ix1 (colAt 192 (by omega) q) := funext fun a => match a with
    | ⟨0, _⟩ => Fin.ext rfl
  rw [e2, e1]

/-! ## The logistic function spelt out -/

/-- `1 / (1 + e^(−z))` with the unit word for `1` is the logistic function of `z`. -/
theorem one_plus_exp (z : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf z)))
      = FloatOps.logistic z := by
  rw [Ideal.ofBits_def, Ideal.ofBits_one_f32]
  rfl

theorem ref_sig52 (x0 x1 : FVec Ideal S50000x64 .f32) (x3 : FVec Ideal S256x128 .f32) (x4 : FVec Ideal S256 .f32)
    (x5 : (⟨S2x800000, .i32⟩ : BufTy).Contents (Elt Ideal)) (x6 : FVec Ideal S800000 .f32) (i : S50000x64.Idx) :
    val_main_v61 (F := Ideal) x0 x1 x3 x4 x5 x6 i = FloatOps.logistic (F := Ideal) (φ := .f32) (val_main_v52 (F := Ideal) x0 x1 x3 x4 x5 x6 i) := by
  rw [val_main_v61_apply, val_main_v60_apply, val_main_cst_10_apply, val_main_v59_apply, val_main_v58_apply,
    val_main_cst_9_apply, val_main_v57_apply, val_main_v56_apply]
  exact one_plus_exp _

theorem ref_sig53 (x0 x1 : FVec Ideal S50000x64 .f32) (x3 : FVec Ideal S256x128 .f32) (x4 : FVec Ideal S256 .f32)
    (x5 : (⟨S2x800000, .i32⟩ : BufTy).Contents (Elt Ideal)) (x6 : FVec Ideal S800000 .f32) (i : S50000x64.Idx) :
    val_main_v67 (F := Ideal) x0 x1 x3 x4 x5 x6 i = FloatOps.logistic (F := Ideal) (φ := .f32) (val_main_v53 (F := Ideal) x0 x1 x3 x4 x5 x6 i) := by
  rw [val_main_v67_apply, val_main_v66_apply, val_main_cst_12_apply, val_main_v65_apply, val_main_v64_apply,
    val_main_cst_11_apply, val_main_v63_apply, val_main_v62_apply]
  exact one_plus_exp _

theorem ref_sig54 (x0 x1 : FVec Ideal S50000x64 .f32) (x3 : FVec Ideal S256x128 .f32) (x4 : FVec Ideal S256 .f32)
    (x5 : (⟨S2x800000, .i32⟩ : BufTy).Contents (Elt Ideal)) (x6 : FVec Ideal S800000 .f32) (i : S50000x64.Idx) :
    val_main_v73 (F := Ideal) x0 x1 x3 x4 x5 x6 i = FloatOps.logistic (F := Ideal) (φ := .f32) (val_main_v54 (F := Ideal) x0 x1 x3 x4 x5 x6 i) := by
  rw [val_main_v73_apply, val_main_v72_apply, val_main_cst_14_apply, val_main_v71_apply, val_main_v70_apply,
    val_main_cst_13_apply, val_main_v69_apply, val_main_v68_apply]
  exact one_plus_exp _

/-! ## The two results -/

/-- The reference's new cell state at an entry, over its aggregation. -/
theorem ref_cell (x0 x1 x2 : FVec Ideal S50000x64 .f32) (x3 : FVec Ideal S256x128 .f32) (x4 : FVec Ideal S256 .f32)
    (x5 : (⟨S2x800000, .i32⟩ : BufTy).Contents (Elt Ideal)) (x6 : FVec Ideal S800000 .f32) (p : Fin 50000) (q : Fin 64) :
    val_main_v77 (F := Ideal) x0 x1 x2 x3 x4 x5 x6 (ix2 p q)
      = Cert.KernelIdeal.Spec.cellFrom (val_main_v48 (F := Ideal) x0 x1 x3 x5 x6) x4 x2 (ix2 p q) := by
  rw [val_main_v77_apply, val_main_v75_apply, val_main_v76_apply, val_main_v74_apply, ref_sig53, ref_sig52,
    ref_col0, ref_col64, ref_col192]
  unfold Cert.KernelIdeal.Spec.cellFrom Cert.KernelIdeal.Gating.cellNext
  show _ = FloatOps.addf
    (FloatOps.mulf (FloatOps.logistic (FloatOps.addf (Cert.KernelIdeal.Spec.col64 _ (ix2 p q)) (Cert.KernelIdeal.Spec.bias64 x4 (ix2 (0 : Fin 1) q)))) (x2 (ix2 p q)))
    (FloatOps.mulf (FloatOps.logistic (FloatOps.addf (Cert.KernelIdeal.Spec.col0 _ (ix2 p q)) (Cert.KernelIdeal.Spec.bias0 x4 (ix2 (0 : Fin 1) q))))
      (FloatOps.tanh (FloatOps.addf (Cert.KernelIdeal.Spec.col192 _ (ix2 p q)) (Cert.KernelIdeal.Spec.bias192 x4 (ix2 (0 : Fin 1) q)))))
  rw [col0_apply, col64_apply, col192_apply, bias0_apply, bias64_apply, bias192_apply]
  rfl

/-- The reference's new cell state is the kernel program's. -/
theorem cell_eq (x0 x1 x2 : FVec Ideal S50000x64 .f32) (x3 : FVec Ideal S256x128 .f32) (x4 : FVec Ideal S256 .f32)
    (x5 : (⟨S2x800000, .i32⟩ : BufTy).Contents (Elt Ideal)) (x6 : FVec Ideal S800000 .f32) :
    val_main_v77 (F := Ideal) x0 x1 x2 x3 x4 x5 x6
      = Cert.KernelIdeal.Spec.cellFrom (Cert.KernelIdeal.Spec.aggOfArgs x0 x1 x3 x5 x6) x4 x2 := by
  funext i
  obtain ⟨p, q, rfl⟩ : ∃ (p : Fin 50000) (q : Fin 64), i = ix2 p q := ⟨i 0, i 1, eq_ix2 i⟩
  rw [ref_cell, agg_eq]

/-- The reference's new hidden state is the kernel program's. -/
theorem hidden_eq (x0 x1 x2 : FVec Ideal S50000x64 .f32) (x3 : FVec Ideal S256x128 .f32) (x4 : FVec Ideal S256 .f32)
    (x5 : (⟨S2x800000, .i32⟩ : BufTy).Contents (Elt Ideal)) (x6 : FVec Ideal S800000 .f32) :
    val_main_v79 (F := Ideal) x0 x1 x2 x3 x4 x5 x6
      = Cert.KernelIdeal.Spec.hiddenFrom (Cert.KernelIdeal.Spec.aggOfArgs x0 x1 x3 x5 x6) x4 x2 := by
  funext i
  obtain ⟨p, q, rfl⟩ : ∃ (p : Fin 50000) (q : Fin 64), i = ix2 p q := ⟨i 0, i 1, eq_ix2 i⟩
  rw [val_main_v79_apply, val_main_v78_apply, ref_cell, ref_sig54, ref_col128, agg_eq]
  unfold Cert.KernelIdeal.Spec.hiddenFrom Cert.KernelIdeal.Gating.hiddenNext
  show _ = FloatOps.mulf
    (FloatOps.logistic (FloatOps.addf (Cert.KernelIdeal.Spec.col128 _ (ix2 p q)) (Cert.KernelIdeal.Spec.bias128 x4 (ix2 (0 : Fin 1) q))))
    (FloatOps.tanh (Cert.KernelIdeal.Spec.cellFrom (Cert.KernelIdeal.Spec.aggOfArgs x0 x1 x3 x5 x6) x4 x2 (ix2 p q)))
  rw [col128_apply, bias128_apply]
  rfl

end Cert.Bridge

end
-- ==== Proof.lean ====
/- The kernel program projects `[x h]` onto 256 features with one Pallas kernel (two 64-position products added,
   on ten blocks of 5000 rows), normalises and aggregates the projected features over the graph's edges with host
   operations, and gates the four 64-column blocks of the aggregation into the new hidden and cell states with a
   second Pallas kernel. The reference does the projection as one product of the joined rows with the transposed
   weight, the same aggregation, adds the bias, cuts the blocks and gates them with the logistic function spelt out.
   On the extended reals the two products are one sum split at 64, the bias and the cuts commute entry by entry,
   and the spelt-out logistic is the logistic operation; the aggregation between is one and the same function of
   the projection and is never opened. No law used needs a finite operand, so the precondition is not opened.
   The three frames: the two kernel programs' are the generated ones; the reference's is its generated run with the
   results dropped. The ideal pass rewrote nothing, so `preserves` is trivial. -/
import proofs.«104125_j6794638262633_1_alg».proof.Defs
import proofs.«104125_j6794638262633_1_alg».proof.Proof.Gen.Kernel
import proofs.«104125_j6794638262633_1_alg».proof.Proof.Gen.Kernel.Skeleton
import proofs.«104125_j6794638262633_1_alg».proof.Proof.Gen.Kernel.Launch
import proofs.«104125_j6794638262633_1_alg».proof.Proof.Gen.Kernel.Points
import proofs.«104125_j6794638262633_1_alg».proof.Proof.Gen.Kernel.Frame
import proofs.«104125_j6794638262633_1_alg».proof.Proof.Gen.KernelIdeal
import proofs.«104125_j6794638262633_1_alg».proof.Proof.Gen.KernelIdeal.Skeleton
import proofs.«104125_j6794638262633_1_alg».proof.Proof.Gen.KernelIdeal.Launch
import proofs.«104125_j6794638262633_1_alg».proof.Proof.Gen.KernelIdeal.Points
import proofs.«104125_j6794638262633_1_alg».proof.Proof.Gen.KernelIdeal.Frame
import proofs.«104125_j6794638262633_1_alg».proof.Proof.Gen.ReferenceIdeal
import proofs.«104125_j6794638262633_1_alg».proof.Proof.Gen.Pre_finite_inputs
import proofs.«104125_j6794638262633_1_alg».proof.Proof.Gen.ReferenceIdeal.Run
import proofs.«104125_j6794638262633_1_alg».proof.Proof.Gen.ReferenceIdeal.Read
import proofs.«104125_j6794638262633_1_alg».proof.Proof.KernelValue
import proofs.«104125_j6794638262633_1_alg».proof.Proof.Bridge
import Idealize.ShloMosaic.Adequacy
import Idealize.ShloMosaic.Init

noncomputable section

namespace Cert.Proof

open Idealize.ShloMosaic Idealize.SL.Sem

/-- Both idealized programs run, from memories that agree on the arguments, to the same two arrays: the kernel
    program's results are the gating functions of the aggregation of the projection of the arguments, and the
    reference's stages are those functions of its own (equal) arguments. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v79_eq, Cert.Bridge.hidden_eq, (hagree c).1, (hagree c).2.1, (hagree c).2.2.1,
      (hagree c).2.2.2.1, (hagree c).2.2.2.2.1, (hagree c).2.2.2.2.2.1, (hagree c).2.2.2.2.2.2]
  · rw [Cert.ReferenceIdeal.Read.val_main_v77_eq, Cert.Bridge.cell_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
